-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x2 : Shape := ⟨2, ![524288, 2]⟩
abbrev S2x2x256 : Shape := ⟨3, ![2, 2, 256]⟩
abbrev S2x256 : Shape := ⟨2, ![2, 256]⟩
abbrev S2x256x256 : Shape := ⟨3, ![2, 256, 256]⟩
abbrev S2x256x4 : Shape := ⟨3, ![2, 256, 4]⟩
abbrev S2x4 : Shape := ⟨2, ![2, 4]⟩
abbrev S_ : Shape := ⟨0, ![]⟩

class Facts : Prop where
  bcast_S_S524288x2 : S_.BroadcastsInDim S524288x2 (![] : Fin 0 → Fin S524288x2.rank)
  reducesTo_S524288x2_S_d0_1 : S524288x2.ReducesTo [0, 1] S_
  h_S_ : 0 < S_.numel
  bcast_S_S2x2x256 : S_.BroadcastsInDim S2x2x256 (![] : Fin 0 → Fin S2x2x256.rank)
  reducesTo_S2x2x256_S_d0_1_2 : S2x2x256.ReducesTo [0, 1, 2] S_
  bcast_S_S2x256 : S_.BroadcastsInDim S2x256 (![] : Fin 0 → Fin S2x256.rank)
  reducesTo_S2x256_S_d0_1 : S2x256.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S2x256x4 : S_.BroadcastsInDim S2x256x4 (![] : Fin 0 → Fin S2x256x4.rank)
  reducesTo_S2x256x4_S_d0_1_2 : S2x256x4.ReducesTo [0, 1, 2] S_
  bcast_S_S2x4 : S_.BroadcastsInDim S2x4 (![] : Fin 0 → Fin S2x4.rank)
  reducesTo_S2x4_S_d0_1 : S2x4.ReducesTo [0, 1] S_

variable [Facts]

def fn_part2 {F : FTy → Type} [FloatOps F] (main_arg7 : FVec F S2x256x4 .f32) (main_arg8 : FVec F S2x4 .f32) (main_v33 : IVec S_ 1) : IVec S_ 1 :=
  let main_v34 : FVec F S2x256x4 .f32 := Host.absf main_arg7
  let main_cst_12 : FVec F S_ .f32 := constant S_ .f32 0x7F800000#32
  let main_v35 : FVec F S2x256x4 .f32 := broadcastInDim S2x256x4 ![] bcast_S_S2x256x4 main_cst_12
  let main_v36 : IVec S2x256x4 1 := cmpf .olt main_v34 main_v35
  let main_c_13 : IVec S_ 1 := constantI S_ 1 1#1
  let main_v37 : IVec S_ 1 := (fun x v => Host.reduce IntOp.andi x v reducesTo_S2x256x4_S_d0_1_2 h_S_) main_v36 main_c_13
  let main_v38 : IVec S_ 1 := andi main_v33 main_v37
  let main_v39 : FVec F S2x4 .f32 := Host.absf main_arg8
  let main_cst_14 : FVec F S_ .f32 := constant S_ .f32 0x7F800000#32
  let main_v40 : FVec F S2x4 .f32 := broadcastInDim S2x4 ![] bcast_S_S2x4 main_cst_14
  let main_v41 : IVec S2x4 1 := cmpf .olt main_v39 main_v40
  let main_c_15 : IVec S_ 1 := constantI S_ 1 1#1
  let main_v42 : IVec S_ 1 := (fun x v => Host.reduce IntOp.andi x v reducesTo_S2x4_S_d0_1 h_S_) main_v41 main_c_15
  let main_v43 : IVec S_ 1 := andi main_v38 main_v42
  main_v43

def fn_part1 {F : FTy → Type} [FloatOps F] (main_arg4 : FVec F S2x256 .f32) (main_arg5 : FVec F S2x256x256 .f32) (main_arg6 : FVec F S2x256 .f32) (main_arg7 : FVec F S2x256x4 .f32) (main_arg8 : FVec F S2x4 .f32) (main_v13 : IVec S_ 1) (main_v16 : IVec S2x2x256 1) : IVec S_ 1 :=
  let main_c_5 : IVec S_ 1 := constantI S_ 1 1#1
  let main_v17 : IVec S_ 1 := (fun x v => Host.reduce IntOp.andi x v reducesTo_S2x2x256_S_d0_1_2 h_S_) main_v16 main_c_5
  let main_v18 : IVec S_ 1 := andi main_v13 main_v17
  let main_v19 : FVec F S2x256 .f32 := Host.absf main_arg4
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2x256x256 .f32 := Host.absf main_arg5
  let main_cst_8 : FVec F S_ .f32 := constant S_ .f32 0x7F800000#32
  let main_v25 : FVec F S2x256x256 .f32 := broadcastInDim S2x256x256 ![] bcast_S_S2x256x256 main_cst_8
  let main_v26 : IVec S2x256x256 1 := cmpf .olt main_v24 main_v25
  let main_c_9 : IVec S_ 1 := constantI S_ 1 1#1
  let main_v27 : IVec S_ 1 := (fun x v => Host.reduce IntOp.andi x v reducesTo_S2x256x256_S_d0_1_2 h_S_) main_v26 main_c_9
  let main_v28 : IVec S_ 1 := andi main_v23 main_v27
  let main_v29 : FVec F S2x256 .f32 := Host.absf main_arg6
  let main_cst_10 : FVec F S_ .f32 := constant S_ .f32 0x7F800000#32
  let main_v30 : FVec F S2x256 .f32 := broadcastInDim S2x256 ![] bcast_S_S2x256 main_cst_10
  let main_v31 : IVec S2x256 1 := cmpf .olt main_v29 main_v30
  let main_c_11 : IVec S_ 1 := constantI S_ 1 1#1
  let main_v32 : IVec S_ 1 := (fun x v => Host.reduce IntOp.andi x v reducesTo_S2x256_S_d0_1 h_S_) main_v31 main_c_11
  let main_v33 : IVec S_ 1 := andi main_v28 main_v32
  fn_part2 (F := F) main_arg7 main_arg8 main_v33

def fn {F : FTy → Type} [FloatOps F] (main_arg0 : FVec F S524288x2 .f32) (main_arg1 : FVec F S524288x2 .f32) (main_arg2 : FVec F S524288x2 .f32) (main_arg3 : FVec F S2x2x256 .f32) (main_arg4 : FVec F S2x256 .f32) (main_arg5 : FVec F S2x256x256 .f32) (main_arg6 : FVec F S2x256 .f32) (main_arg7 : FVec F S2x256x4 .f32) (main_arg8 : FVec F S2x4 .f32) : IVec S_ 1 :=
  let main_v0 : FVec F S524288x2 .f32 := Host.absf main_arg0
  let main_cst : FVec F S_ .f32 := constant S_ .f32 0x7F800000#32
  let main_v1 : FVec F S524288x2 .f32 := broadcastInDim S524288x2 ![] bcast_S_S524288x2 main_cst
  let main_v2 : IVec S524288x2 1 := cmpf .olt main_v0 main_v1
  let main_c : IVec S_ 1 := constantI S_ 1 1#1
  let main_v3 : IVec S_ 1 := (fun x v => Host.reduce IntOp.andi x v reducesTo_S524288x2_S_d0_1 h_S_) main_v2 main_c
  let main_v4 : FVec F S524288x2 .f32 := Host.absf main_arg1
  let main_cst_0 : FVec F S_ .f32 := constant S_ .f32 0x7F800000#32
  let main_v5 : FVec F S524288x2 .f32 := broadcastInDim S524288x2 ![] bcast_S_S524288x2 main_cst_0
  let main_v6 : IVec S524288x2 1 := cmpf .olt main_v4 main_v5
  let main_c_1 : IVec S_ 1 := constantI S_ 1 1#1
  let main_v7 : IVec S_ 1 := (fun x v => Host.reduce IntOp.andi x v reducesTo_S524288x2_S_d0_1 h_S_) main_v6 main_c_1
  let main_v8 : IVec S_ 1 := andi main_v3 main_v7
  let main_v9 : FVec F S524288x2 .f32 := Host.absf main_arg2
  let main_cst_2 : FVec F S_ .f32 := constant S_ .f32 0x7F800000#32
  let main_v10 : FVec F S524288x2 .f32 := broadcastInDim S524288x2 ![] bcast_S_S524288x2 main_cst_2
  let main_v11 : IVec S524288x2 1 := cmpf .olt main_v9 main_v10
  let main_c_3 : IVec S_ 1 := constantI S_ 1 1#1
  let main_v12 : IVec S_ 1 := (fun x v => Host.reduce IntOp.andi x v reducesTo_S524288x2_S_d0_1 h_S_) main_v11 main_c_3
  let main_v13 : IVec S_ 1 := andi main_v8 main_v12
  let main_v14 : FVec F S2x2x256 .f32 := Host.absf main_arg3
  let main_cst_4 : FVec F S_ .f32 := constant S_ .f32 0x7F800000#32
  let main_v15 : FVec F S2x2x256 .f32 := broadcastInDim S2x2x256 ![] bcast_S_S2x2x256 main_cst_4
  let main_v16 : IVec S2x2x256 1 := cmpf .olt main_v14 main_v15
  fn_part1 (F := F) main_arg4 main_arg5 main_arg6 main_arg7 main_arg8 main_v13 main_v16
-- ==== Kernel.lean ====
abbrev S524288x2 : Shape := ⟨2, ![524288, 2]⟩
abbrev S2x2x256 : Shape := ⟨3, ![2, 2, 256]⟩
abbrev S2x256 : Shape := ⟨2, ![2, 256]⟩
abbrev S2x256x256 : Shape := ⟨3, ![2, 256, 256]⟩
abbrev S2x256x4 : Shape := ⟨3, ![2, 256, 4]⟩
abbrev S2x4 : Shape := ⟨2, ![2, 4]⟩
abbrev S256x256 : Shape := ⟨2, ![256, 256]⟩
abbrev S256x4 : Shape := ⟨2, ![256, 4]⟩
abbrev S4 : Shape := ⟨1, ![4]⟩
abbrev S1x2x256 : Shape := ⟨3, ![1, 2, 256]⟩
abbrev S1x256x256 : Shape := ⟨3, ![1, 256, 256]⟩
abbrev S1x256x4 : Shape := ⟨3, ![1, 256, 4]⟩
abbrev S_ : Shape := ⟨0, ![]⟩
abbrev S4x1 : Shape := ⟨2, ![4, 1]⟩
abbrev S1 : Shape := ⟨1, ![1]⟩
abbrev S1x1 : Shape := ⟨2, ![1, 1]⟩
abbrev S2048x2 : Shape := ⟨2, ![2048, 2]⟩
abbrev S1x256 : Shape := ⟨2, ![1, 256]⟩
abbrev S256 : Shape := ⟨1, ![256]⟩
abbrev S1x4 : Shape := ⟨2, ![1, 4]⟩
abbrev S2048x256 : Shape := ⟨2, ![2048, 256]⟩
abbrev S2048x4 : Shape := ⟨2, ![2048, 4]⟩

abbrev nBuf : Space → Nat
  | .hbm => 69
  | .vmem => 14
  | .smem => 0
  | _ => 0

abbrev bufTy : (tb : Table) → Fin (tcTables nBuf tb) → BufTy
  | .hbm, ⟨0, _⟩ => ⟨S524288x2, .f32⟩
  | .hbm, ⟨1, _⟩ => ⟨S524288x2, .f32⟩
  | .hbm, ⟨2, _⟩ => ⟨S524288x2, .f32⟩
  | .hbm, ⟨3, _⟩ => ⟨S2x2x256, .f32⟩
  | .hbm, ⟨4, _⟩ => ⟨S2x256, .f32⟩
  | .hbm, ⟨5, _⟩ => ⟨S2x256x256, .f32⟩
  | .hbm, ⟨6, _⟩ => ⟨S2x256, .f32⟩
  | .hbm, ⟨7, _⟩ => ⟨S2x256x4, .f32⟩
  | .hbm, ⟨8, _⟩ => ⟨S2x4, .f32⟩
  | .hbm, ⟨9, _⟩ => ⟨S2x256, .f32⟩
  | .hbm, ⟨10, _⟩ => ⟨S256x256, .f32⟩
  | .hbm, ⟨11, _⟩ => ⟨S256x4, .f32⟩
  | .hbm, ⟨12, _⟩ => ⟨S4, .i32⟩
  | .hbm, ⟨13, _⟩ => ⟨S1x2x256, .f32⟩
  | .hbm, ⟨14, _⟩ => ⟨S2x2x256, .f32⟩
  | .hbm, ⟨15, _⟩ => ⟨S2x2x256, .f32⟩
  | .hbm, ⟨16, _⟩ => ⟨S1x256x256, .f32⟩
  | .hbm, ⟨17, _⟩ => ⟨S2x256x256, .f32⟩
  | .hbm, ⟨18, _⟩ => ⟨S2x256x256, .f32⟩
  | .hbm, ⟨19, _⟩ => ⟨S1x256x4, .f32⟩
  | .hbm, ⟨20, _⟩ => ⟨S2x256x4, .f32⟩
  | .hbm, ⟨21, _⟩ => ⟨S2x256x4, .f32⟩
  | .hbm, ⟨22, _⟩ => ⟨S_, .i32⟩
  | .hbm, ⟨23, _⟩ => ⟨S4, .i32⟩
  | .hbm, ⟨24, _⟩ => ⟨S4, .i1⟩
  | .hbm, ⟨25, _⟩ => ⟨S_, .i32⟩
  | .hbm, ⟨26, _⟩ => ⟨S4, .i32⟩
  | .hbm, ⟨27, _⟩ => ⟨S4, .i32⟩
  | .hbm, ⟨28, _⟩ => ⟨S4, .i32⟩
  | .hbm, ⟨29, _⟩ => ⟨S4x1, .i32⟩
  | .hbm, ⟨30, _⟩ => ⟨S1, .i32⟩
  | .hbm, ⟨31, _⟩ => ⟨S_, .i32⟩
  | .hbm, ⟨32, _⟩ => ⟨S4x1, .i32⟩
  | .hbm, ⟨33, _⟩ => ⟨S4x1, .i1⟩
  | .hbm, ⟨34, _⟩ => ⟨S1x1, .i32⟩
  | .hbm, ⟨35, _⟩ => ⟨S4x1, .i32⟩
  | .hbm, ⟨36, _⟩ => ⟨S4x1, .i1⟩
  | .hbm, ⟨37, _⟩ => ⟨S4x1, .i1⟩
  | .hbm, ⟨38, _⟩ => ⟨S_, .i1⟩
  | .hbm, ⟨39, _⟩ => ⟨S4, .i1⟩
  | .hbm, ⟨40, _⟩ => ⟨S2x256x4, .f32⟩
  | .hbm, ⟨41, _⟩ => ⟨S2x256x4, .i1⟩
  | .hbm, ⟨42, _⟩ => ⟨S_, .f32⟩
  | .hbm, ⟨43, _⟩ => ⟨S2x256x4, .f32⟩
  | .hbm, ⟨44, _⟩ => ⟨S2x256x4, .f32⟩
  | .hbm, ⟨45, _⟩ => ⟨S_, .i32⟩
  | .hbm, ⟨46, _⟩ => ⟨S4, .i32⟩
  | .hbm, ⟨47, _⟩ => ⟨S4, .i1⟩
  | .hbm, ⟨48, _⟩ => ⟨S_, .i32⟩
  | .hbm, ⟨49, _⟩ => ⟨S4, .i32⟩
  | .hbm, ⟨50, _⟩ => ⟨S4, .i32⟩
  | .hbm, ⟨51, _⟩ => ⟨S4, .i32⟩
  | .hbm, ⟨52, _⟩ => ⟨S4x1, .i32⟩
  | .hbm, ⟨53, _⟩ => ⟨S1, .i32⟩
  | .hbm, ⟨54, _⟩ => ⟨S_, .i32⟩
  | .hbm, ⟨55, _⟩ => ⟨S4x1, .i32⟩
  | .hbm, ⟨56, _⟩ => ⟨S4x1, .i1⟩
  | .hbm, ⟨57, _⟩ => ⟨S1x1, .i32⟩
  | .hbm, ⟨58, _⟩ => ⟨S4x1, .i32⟩
  | .hbm, ⟨59, _⟩ => ⟨S4x1, .i1⟩
  | .hbm, ⟨60, _⟩ => ⟨S4x1, .i1⟩
  | .hbm, ⟨61, _⟩ => ⟨S_, .i1⟩
  | .hbm, ⟨62, _⟩ => ⟨S4, .i1⟩
  | .hbm, ⟨63, _⟩ => ⟨S2x4, .f32⟩
  | .hbm, ⟨64, _⟩ => ⟨S2x4, .i1⟩
  | .hbm, ⟨65, _⟩ => ⟨S_, .f32⟩
  | .hbm, ⟨66, _⟩ => ⟨S2x4, .f32⟩
  | .hbm, ⟨67, _⟩ => ⟨S2x4, .f32⟩
  | .hbm, ⟨68, _⟩ => ⟨S524288x2, .f32⟩
  | .local _ .vmem, ⟨0, _⟩ => ⟨S2048x2, .f32⟩
  | .local _ .vmem, ⟨1, _⟩ => ⟨S2048x2, .f32⟩
  | .local _ .vmem, ⟨2, _⟩ => ⟨S2048x2, .f32⟩
  | .local _ .vmem, ⟨3, _⟩ => ⟨S2048x2, .f32⟩
  | .local _ .vmem, ⟨4, _⟩ => ⟨S2048x2, .f32⟩
  | .local _ .vmem, ⟨5, _⟩ => ⟨S2048x2, .f32⟩
  | .local _ .vmem, ⟨6, _⟩ => ⟨S2x2x256, .f32⟩
  | .local _ .vmem, ⟨7, _⟩ => ⟨S2x256, .f32⟩
  | .local _ .vmem, ⟨8, _⟩ => ⟨S2x256x256, .f32⟩
  | .local _ .vmem, ⟨9, _⟩ => ⟨S2x256, .f32⟩
  | .local _ .vmem, ⟨10, _⟩ => ⟨S2x256x4, .f32⟩
  | .local _ .vmem, ⟨11, _⟩ => ⟨S2x4, .f32⟩
  | .local _ .vmem, ⟨12, _⟩ => ⟨S2048x2, .f32⟩
  | .local _ .vmem, ⟨13, _⟩ => ⟨S2048x2, .f32⟩
  | _, _ => ⟨S524288x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v9 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v10 : Ref sig .tc := ⟨.hbm, 67, rfl⟩
abbrev main_v11 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S2x256_S1x2x256_1_2 : S2x256.BroadcastsInDim S1x2x256 (![1, 2] : Fin 2 → Fin S1x2x256.rank)
  bcast_S1x2x256_S2x2x256_0_1_2 : S1x2x256.BroadcastsInDim S2x2x256 (![0, 1, 2] : Fin 3 → Fin S2x2x256.rank)
  bcast_S256x256_S1x256x256_1_2 : S256x256.BroadcastsInDim S1x256x256 (![1, 2] : Fin 2 → Fin S1x256x256.rank)
  bcast_S1x256x256_S2x256x256_0_1_2 : S1x256x256.BroadcastsInDim S2x256x256 (![0, 1, 2] : Fin 3 → Fin S2x256x256.rank)
  bcast_S256x4_S1x256x4_1_2 : S256x4.BroadcastsInDim S1x256x4 (![1, 2] : Fin 2 → Fin S1x256x4.rank)
  bcast_S1x256x4_S2x256x4_0_1_2 : S1x256x4.BroadcastsInDim S2x256x4 (![0, 1, 2] : Fin 3 → Fin S2x256x4.rank)
  bcast_S_S4 : S_.BroadcastsInDim S4 (![] : Fin 0 → Fin S4.rank)
  bcast_S4_S4x1_0 : S4.BroadcastsInDim S4x1 (![0] : Fin 1 → Fin S4x1.rank)
  bcast_S_S4x1 : S_.BroadcastsInDim S4x1 (![] : Fin 0 → Fin S4x1.rank)
  bcast_S1_S1x1_1 : S1.BroadcastsInDim S1x1 (![1] : Fin 1 → Fin S1x1.rank)
  bcast_S1x1_S4x1_0_1 : S1x1.BroadcastsInDim S4x1 (![0, 1] : Fin 2 → Fin S4x1.rank)
  reducesTo_S4x1_S4_d1 : S4x1.ReducesTo [1] S4
  h_S_ : 0 < S_.numel
  bcast_S4_S2x256x4_2 : S4.BroadcastsInDim S2x256x4 (![2] : Fin 1 → Fin S2x256x4.rank)
  bcast_S_S2x256x4 : S_.BroadcastsInDim S2x256x4 (![] : Fin 0 → Fin S2x256x4.rank)
  bcast_S4_S2x4_1 : S4.BroadcastsInDim S2x4 (![1] : Fin 1 → Fin S2x4.rank)
  bcast_S_S2x4 : S_.BroadcastsInDim S2x4 (![] : Fin 0 → Fin S2x4.rank)
  inb_S2048x2_S2048x2_0_0 : ∀ a, (![0, 0] : Fin 2 → Nat) a + S2048x2.size a ≤ S2048x2.size a
  h_S2048x2 : 0 < S2048x2.numel
  inb_S2x2x256_S1x2x256_0_0_0 : ∀ a, (![0, 0, 0] : Fin 3 → Nat) a + S1x2x256.size a ≤ S2x2x256.size a
  h_S1x2x256 : 0 < S1x2x256.numel
  shapeCasts_S1x2x256_S2x256 : S1x2x256.ShapeCasts S2x256
  bitsLt_bf16_f32 : FTy.bits .bf16 < FTy.bits .f32
  inb_S2x256_S1x256_0_0 : ∀ a, (![0, 0] : Fin 2 → Nat) a + S1x256.size a ≤ S2x256.size a
  h_S1x256 : 0 < S1x256.numel
  shapeCasts_S1x256_S256 : S1x256.ShapeCasts S256
  inb_S2x256x256_S1x256x256_0_0_0 : ∀ a, (![0, 0, 0] : Fin 3 → Nat) a + S1x256x256.size a ≤ S2x256x256.size a
  h_S1x256x256 : 0 < S1x256x256.numel
  shapeCasts_S1x256x256_S256x256 : S1x256x256.ShapeCasts S256x256
  inb_S2x256x4_S1x256x4_0_0_0 : ∀ a, (![0, 0, 0] : Fin 3 → Nat) a + S1x256x4.size a ≤ S2x256x4.size a
  h_S1x256x4 : 0 < S1x256x4.numel
  shapeCasts_S1x256x4_S256x4 : S1x256x4.ShapeCasts S256x4
  inb_S2x4_S1x4_0_0 : ∀ a, (![0, 0] : Fin 2 → Nat) a + S1x4.size a ≤ S2x4.size a
  h_S1x4 : 0 < S1x4.numel
  shapeCasts_S1x4_S4 : S1x4.ShapeCasts S4
  shapeCasts_S256_S1x256 : S256.ShapeCasts S1x256
  broadcasts_S1x256_S2048x256 : S1x256.Broadcasts S2048x256
  shapeCasts_S4_S1x4 : S4.ShapeCasts S1x4
  broadcasts_S1x4_S2048x4 : S1x4.Broadcasts S2048x4
  slices_S2048x4_o0_0_S2048x2 : S2048x4.Slices ![0, 0] S2048x2
  slices_S2048x4_o0_2_S2048x2 : S2048x4.Slices ![0, 2] S2048x2
  inb_S2x2x256_S1x2x256_1_0_0 : ∀ a, (![1, 0, 0] : Fin 3 → Nat) a + S1x2x256.size a ≤ S2x2x256.size a
  inb_S2x256_S1x256_1_0 : ∀ a, (![1, 0] : Fin 2 → Nat) a + S1x256.size a ≤ S2x256.size a
  inb_S2x256x256_S1x256x256_1_0_0 : ∀ a, (![1, 0, 0] : Fin 3 → Nat) a + S1x256x256.size a ≤ S2x256x256.size a
  inb_S2x256x4_S1x256x4_1_0_0 : ∀ a, (![1, 0, 0] : Fin 3 → Nat) a + S1x256x4.size a ≤ S2x256x4.size a
  inb_S2x4_S1x4_1_0 : ∀ a, (![1, 0] : Fin 2 → Nat) a + S1x4.size a ≤ S2x4.size a
  gather_S2x256x4_S4x1_S2x256x4_01_2_n_n_2_1_22561_wf : GatherDims.WF S2x256x4 S4x1 S2x256x4 [0, 1] [2] [] [2] [] 1 ![2, 256, 1]
  gather_S2x4_S4x1_S2x4_0_1_n_n_1_1_21_wf : GatherDims.WF S2x4 S4x1 S2x4 [0] [1] [] [1] [] 1 ![2, 1]
  dot_S2048x2_S2x256_S2048x256_1_0_0_1_n_n_wf : DotDims.WF S2048x2 S2x256 S2048x256 [1] [0] [0] [1] [] []
  dot_S2048x256_S256x256_S2048x256_1_0_0_1_n_n_wf : DotDims.WF S2048x256 S256x256 S2048x256 [1] [0] [0] [1] [] []
  dot_S2048x256_S256x4_S2048x4_1_0_0_1_n_n_wf : DotDims.WF S2048x256 S256x4 S2048x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S524288x2.size a
  hwx0_0 : ∀ i : grid0.Coords, EltTy.bits .f32 = 32 ∨ (Rect.block (s := S524288x2) S2048x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2.size a ≤ S524288x2.size a
  hwx0_1 : ∀ i : grid0.Coords, EltTy.bits .f32 = 32 ∨ (Rect.block (s := S524288x2) S2048x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2.size a ≤ S524288x2.size a
  hwx0_2 : ∀ i : grid0.Coords, EltTy.bits .f32 = 32 ∨ (Rect.block (s := S524288x2) S2048x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x2x256.size a ≤ S2x2x256.size a
  hwx0_3 : ∀ i : grid0.Coords, EltTy.bits .f32 = 32 ∨ (Rect.block (s := S2x2x256) S2x2x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x256.size a ≤ S2x256.size a
  hwx0_4 : ∀ i : grid0.Coords, EltTy.bits .f32 = 32 ∨ (Rect.block (s := S2x256) S2x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x256x256.size a ≤ S2x256x256.size a
  hwx0_5 : ∀ i : grid0.Coords, EltTy.bits .f32 = 32 ∨ (Rect.block (s := S2x256x256) S2x256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x256.size a ≤ S2x256.size a
  hwx0_6 : ∀ i : grid0.Coords, EltTy.bits .f32 = 32 ∨ (Rect.block (s := S2x256) S2x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x256x4.size a ≤ S2x256x4.size a
  hwx0_7 : ∀ i : grid0.Coords, EltTy.bits .f32 = 32 ∨ (Rect.block (s := S2x256x4) S2x256x4.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x4.size a ≤ S2x4.size a
  hwx0_8 : ∀ i : grid0.Coords, EltTy.bits .f32 = 32 ∨ (Rect.block (s := S2x4) S2x4.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x2.size a ≤ S524288x2.size a
  hwx0_9 : ∀ i : grid0.Coords, EltTy.bits .f32 = 32 ∨ (Rect.block (s := S524288x2) S2048x2.size (cc0_transform_9 i) (hinb0_9 i)).WholeWords (EltTy.packing .f32)

variable [Facts₀]

def gather_S2x256x4_S4x1_S2x256x4_01_2_n_n_2_1_22561 : GatherDims S2x256x4 S4x1 S2x256x4 where
  offsetDims := [0, 1]
  collapsedSliceDims := [2]
  operandBatchingDims := []
  startIndicesBatchingDims := []
  startIndexMap := [2]
  indexVectorDim := 1
  sliceSizes := ![2, 256, 1]
  wf := gather_S2x256x4_S4x1_S2x256x4_01_2_n_n_2_1_22561_wf
def gather_S2x4_S4x1_S2x4_0_1_n_n_1_1_21 : GatherDims S2x4 S4x1 S2x4 where
  offsetDims := [0]
  collapsedSliceDims := [1]
  operandBatchingDims := []
  startIndicesBatchingDims := []
  startIndexMap := [1]
  indexVectorDim := 1
  sliceSizes := ![2, 1]
  wf := gather_S2x4_S4x1_S2x4_0_1_n_n_1_1_21_wf
def dot_S2048x2_S2x256_S2048x256_1_0_0_1_n_n : DotDims S2048x2 S2x256 S2048x256 where
  lhsContracting := [1]
  rhsContracting := [0]
  lhsNonContracting := [0]
  rhsNonContracting := [1]
  lhsBatch := []
  rhsBatch := []
  wf := dot_S2048x2_S2x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x4_S2048x4_1_0_0_1_n_n : DotDims S2048x256 S256x4 S2048x4 where
  lhsContracting := [1]
  rhsContracting := [0]
  lhsNonContracting := [0]
  rhsNonContracting := [1]
  lhsBatch := []
  rhsBatch := []
  wf := dot_S2048x256_S256x4_S2048x4_1_0_0_1_n_n_wf

abbrev win0_0 : Pipeline.Window sig grid0 :=
  Pipeline.Window.ofSpec (Memref.whole main_arg0) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2x2x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2x256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S2x256x4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S2x4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S2048x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S524288x2 : Shape := ⟨2, ![524288, 2]⟩
abbrev S2x2x256 : Shape := ⟨3, ![2, 2, 256]⟩
abbrev S2x256 : Shape := ⟨2, ![2, 256]⟩
abbrev S2x256x256 : Shape := ⟨3, ![2, 256, 256]⟩
abbrev S2x256x4 : Shape := ⟨3, ![2, 256, 4]⟩
abbrev S2x4 : Shape := ⟨2, ![2, 4]⟩
abbrev S256x256 : Shape := ⟨2, ![256, 256]⟩
abbrev S256x4 : Shape := ⟨2, ![256, 4]⟩
abbrev S_ : Shape := ⟨0, ![]⟩
abbrev S1x2x256 : Shape := ⟨3, ![1, 2, 256]⟩
abbrev S1x256 : Shape := ⟨2, ![1, 256]⟩
abbrev S256 : Shape := ⟨1, ![256]⟩
abbrev S1x256x256 : Shape := ⟨3, ![1, 256, 256]⟩
abbrev S1x256x4 : Shape := ⟨3, ![1, 256, 4]⟩
abbrev S1x4 : Shape := ⟨2, ![1, 4]⟩
abbrev S4 : Shape := ⟨1, ![4]⟩
abbrev S524288x256 : Shape := ⟨2, ![524288, 256]⟩
abbrev S524288x4 : Shape := ⟨2, ![524288, 4]⟩
abbrev S524288x2x2 : Shape := ⟨3, ![524288, 2, 2]⟩
abbrev S524288x2x1 : Shape := ⟨3, ![524288, 2, 1]⟩

abbrev nBuf : Space → Nat
  | .hbm => 132
  | .vmem => 0
  | .smem => 0
  | _ => 0

abbrev hbmTy0_0 (i : Nat) : BufTy := match i % 128 with
  | 0 => ⟨S524288x2, .f32⟩
  | 1 => ⟨S524288x2, .f32⟩
  | 2 => ⟨S524288x2, .f32⟩
  | 3 => ⟨S2x2x256, .f32⟩
  | 4 => ⟨S2x256, .f32⟩
  | 5 => ⟨S2x256x256, .f32⟩
  | 6 => ⟨S2x256, .f32⟩
  | 7 => ⟨S2x256x4, .f32⟩
  | 8 => ⟨S2x4, .f32⟩
  | 9 => ⟨S2x256, .f32⟩
  | 10 => ⟨S256x256, .f32⟩
  | 11 => ⟨S256x4, .f32⟩
  | 12 => ⟨S_, .f32⟩
  | 13 => ⟨S524288x2, .f32⟩
  | 14 => ⟨S524288x2, .f32⟩
  | 15 => ⟨S524288x2, .f32⟩
  | 16 => ⟨S524288x2, .f32⟩
  | 17 => ⟨S524288x2, .f32⟩
  | 18 => ⟨S1x2x256, .f32⟩
  | 19 => ⟨S2x256, .f32⟩
  | 20 => ⟨S1x256, .f32⟩
  | 21 => ⟨S256, .f32⟩
  | 22 => ⟨S1x256x256, .f32⟩
  | 23 => ⟨S256x256, .f32⟩
  | 24 => ⟨S1x256, .f32⟩
  | 25 => ⟨S256, .f32⟩
  | 26 => ⟨S1x256x4, .f32⟩
  | 27 => ⟨S256x4, .f32⟩
  | 28 => ⟨S1x4, .f32⟩
  | 29 => ⟨S4, .f32⟩
  | 30 => ⟨S2x256, .f32⟩
  | 31 => ⟨S256x256, .f32⟩
  | 32 => ⟨S256x4, .f32⟩
  | 33 => ⟨S_, .f32⟩
  | 34 => ⟨S524288x2, .f32⟩
  | 35 => ⟨S524288x256, .f32⟩
  | 36 => ⟨S1x256, .f32⟩
  | 37 => ⟨S524288x256, .f32⟩
  | 38 => ⟨S524288x256, .f32⟩
  | 39 => ⟨S524288x256, .f32⟩
  | 40 => ⟨S1x256, .f32⟩
  | 41 => ⟨S524288x256, .f32⟩
  | 42 => ⟨S524288x256, .f32⟩
  | 43 => ⟨S524288x4, .f32⟩
  | 44 => ⟨S1x4, .f32⟩
  | 45 => ⟨S524288x4, .f32⟩
  | 46 => ⟨S524288x4, .f32⟩
  | 47 => ⟨S524288x2x2, .f32⟩
  | 48 => ⟨S524288x2x1, .f32⟩
  | 49 => ⟨S524288x2, .f32⟩
  | 50 => ⟨S524288x2x1, .f32⟩
  | 51 => ⟨S524288x2, .f32⟩
  | 52 => ⟨S524288x2, .f32⟩
  | 53 => ⟨S524288x2, .f32⟩
  | 54 => ⟨S524288x2, .f32⟩
  | 55 => ⟨S524288x256, .f32⟩
  | 56 => ⟨S1x256, .f32⟩
  | 57 => ⟨S524288x256, .f32⟩
  | 58 => ⟨S524288x256, .f32⟩
  | 59 => ⟨S524288x256, .f32⟩
  | 60 => ⟨S1x256, .f32⟩
  | 61 => ⟨S524288x256, .f32⟩
  | 62 => ⟨S524288x256, .f32⟩
  | 63 => ⟨S524288x4, .f32⟩
  | 64 => ⟨S1x4, .f32⟩
  | 65 => ⟨S524288x4, .f32⟩
  | 66 => ⟨S524288x4, .f32⟩
  | 67 => ⟨S524288x2x2, .f32⟩
  | 68 => ⟨S524288x2x1, .f32⟩
  | 69 => ⟨S524288x2, .f32⟩
  | 70 => ⟨S524288x2x1, .f32⟩
  | 71 => ⟨S524288x2, .f32⟩
  | 72 => ⟨S524288x2, .f32⟩
  | 73 => ⟨S524288x2, .f32⟩
  | 74 => ⟨S524288x2, .f32⟩
  | 75 => ⟨S1x2x256, .f32⟩
  | 76 => ⟨S2x256, .f32⟩
  | 77 => ⟨S1x256, .f32⟩
  | 78 => ⟨S256, .f32⟩
  | 79 => ⟨S1x256x256, .f32⟩
  | 80 => ⟨S256x256, .f32⟩
  | 81 => ⟨S1x256, .f32⟩
  | 82 => ⟨S256, .f32⟩
  | 83 => ⟨S1x256x4, .f32⟩
  | 84 => ⟨S256x4, .f32⟩
  | 85 => ⟨S1x4, .f32⟩
  | 86 => ⟨S4, .f32⟩
  | 87 => ⟨S2x256, .f32⟩
  | 88 => ⟨S256x256, .f32⟩
  | 89 => ⟨S256x4, .f32⟩
  | 90 => ⟨S_, .f32⟩
  | 91 => ⟨S524288x2, .f32⟩
  | 92 => ⟨S524288x256, .f32⟩
  | 93 => ⟨S1x256, .f32⟩
  | 94 => ⟨S524288x256, .f32⟩
  | 95 => ⟨S524288x256, .f32⟩
  | 96 => ⟨S524288x256, .f32⟩
  | 97 => ⟨S1x256, .f32⟩
  | 98 => ⟨S524288x256, .f32⟩
  | 99 => ⟨S524288x256, .f32⟩
  | 100 => ⟨S524288x4, .f32⟩
  | 101 => ⟨S1x4, .f32⟩
  | 102 => ⟨S524288x4, .f32⟩
  | 103 => ⟨S524288x4, .f32⟩
  | 104 => ⟨S524288x2x2, .f32⟩
  | 105 => ⟨S524288x2x1, .f32⟩
  | 106 => ⟨S524288x2, .f32⟩
  | 107 => ⟨S524288x2x1, .f32⟩
  | 108 => ⟨S524288x2, .f32⟩
  | 109 => ⟨S524288x2, .f32⟩
  | 110 => ⟨S524288x2, .f32⟩
  | 111 => ⟨S524288x2, .f32⟩
  | 112 => ⟨S524288x256, .f32⟩
  | 113 => ⟨S1x256, .f32⟩
  | 114 => ⟨S524288x256, .f32⟩
  | 115 => ⟨S524288x256, .f32⟩
  | 116 => ⟨S524288x256, .f32⟩
  | 117 => ⟨S1x256, .f32⟩
  | 118 => ⟨S524288x256, .f32⟩
  | 119 => ⟨S524288x256, .f32⟩
  | 120 => ⟨S524288x4, .f32⟩
  | 121 => ⟨S1x4, .f32⟩
  | 122 => ⟨S524288x4, .f32⟩
  | 123 => ⟨S524288x4, .f32⟩
  | 124 => ⟨S524288x2x2, .f32⟩
  | 125 => ⟨S524288x2x1, .f32⟩
  | 126 => ⟨S524288x2, .f32⟩
  | 127 => ⟨S524288x2x1, .f32⟩
  | _ => ⟨S524288x2, .f32⟩

abbrev hbmTy0_1 (i : Nat) : BufTy := match i % 128 with
  | 0 => ⟨S524288x2, .f32⟩
  | 1 => ⟨S524288x2, .f32⟩
  | 2 => ⟨S524288x2, .f32⟩
  | 3 => ⟨S524288x2, .f32⟩
  | _ => ⟨S524288x2, .f32⟩

abbrev hbmTy (i : Nat) : BufTy := match i / 128 with
  | 0 => hbmTy0_0 i
  | 1 => hbmTy0_1 i
  | _ => ⟨S524288x2, .f32⟩

abbrev bufTy : (tb : Table) → Fin (tcTables nBuf tb) → BufTy
  | .hbm, ⟨i, _⟩ => hbmTy i
  | _, _ => ⟨S524288x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_cst_2 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_4 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩

abbrev nD : Nat := 1
abbrev τ : Topo := Topo.v7x

variable {F : FTy → Type} [FloatOps F]

class Facts₀ : Prop where
  bcast_S_S524288x2 : S_.BroadcastsInDim S524288x2 (![] : Fin 0 → Fin S524288x2.rank)
  slices_S2x2x256_S1x2x256_0_0_0 : S2x2x256.Slices ![0, 0, 0] S1x2x256
  shapeCasts_S1x2x256_S2x256 : S1x2x256.ShapeCasts S2x256
  slices_S2x256_S1x256_0_0 : S2x256.Slices ![0, 0] S1x256
  shapeCasts_S1x256_S256 : S1x256.ShapeCasts S256
  slices_S2x256x256_S1x256x256_0_0_0 : S2x256x256.Slices ![0, 0, 0] S1x256x256
  shapeCasts_S1x256x256_S256x256 : S1x256x256.ShapeCasts S256x256
  slices_S2x256x4_S1x256x4_0_0_0 : S2x256x4.Slices ![0, 0, 0] S1x256x4
  shapeCasts_S1x256x4_S256x4 : S1x256x4.ShapeCasts S256x4
  slices_S2x4_S1x4_0_0 : S2x4.Slices ![0, 0] S1x4
  shapeCasts_S1x4_S4 : S1x4.ShapeCasts S4
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S4_S1x4_1 : S4.BroadcastsInDim S1x4 (![1] : Fin 1 → Fin S1x4.rank)
  bcast_S1x4_S524288x4_0_1 : S1x4.BroadcastsInDim S524288x4 (![0, 1] : Fin 2 → Fin S524288x4.rank)
  shapeCasts_S524288x4_S524288x2x2 : S524288x4.ShapeCasts S524288x2x2
  slices_S524288x2x2_S524288x2x1_0_0_0 : S524288x2x2.Slices ![0, 0, 0] S524288x2x1
  shapeCasts_S524288x2x1_S524288x2 : S524288x2x1.ShapeCasts S524288x2
  slices_S524288x2x2_S524288x2x1_0_0_1 : S524288x2x2.Slices ![0, 0, 1] S524288x2x1
  slices_S2x2x256_S1x2x256_1_0_0 : S2x2x256.Slices ![1, 0, 0] S1x2x256
  slices_S2x256_S1x256_1_0 : S2x256.Slices ![1, 0] S1x256
  slices_S2x256x256_S1x256x256_1_0_0 : S2x256x256.Slices ![1, 0, 0] S1x256x256
  slices_S2x256x4_S1x256x4_1_0_0 : S2x256x4.Slices ![1, 0, 0] S1x256x4
  slices_S2x4_S1x4_1_0 : S2x4.Slices ![1, 0] S1x4
  dot_S524288x2_S2x256_S524288x256_1_0_0_1_n_n_wf : DotDims.WF S524288x2 S2x256 S524288x256 [1] [0] [0] [1] [] []
  dot_S524288x256_S256x256_S524288x256_1_0_0_1_n_n_wf : DotDims.WF S524288x256 S256x256 S524288x256 [1] [0] [0] [1] [] []
  dot_S524288x256_S256x4_S524288x4_1_0_0_1_n_n_wf : DotDims.WF S524288x256 S256x4 S524288x4 [1] [0] [0] [1] [] []

variable [Facts₀]

def dot_S524288x2_S2x256_S524288x256_1_0_0_1_n_n : DotDims S524288x2 S2x256 S524288x256 where
  lhsContracting := [1]
  rhsContracting := [0]
  lhsNonContracting := [0]
  rhsNonContracting := [1]
  lhsBatch := []
  rhsBatch := []
  wf := dot_S524288x2_S2x256_S524288x256_1_0_0_1_n_n_wf
def dot_S524288x256_S256x256_S524288x256_1_0_0_1_n_n : DotDims S524288x256 S256x256 S524288x256 where
  lhsContracting := [1]
  rhsContracting := [0]
  lhsNonContracting := [0]
  rhsNonContracting := [1]
  lhsBatch := []
  rhsBatch := []
  wf := dot_S524288x256_S256x256_S524288x256_1_0_0_1_n_n_wf
def dot_S524288x256_S256x4_S524288x4_1_0_0_1_n_n : DotDims S524288x256 S256x4 S524288x4 where
  lhsContracting := [1]
  rhsContracting := [0]
  lhsNonContracting := [0]
  rhsNonContracting := [1]
  lhsBatch := []
  rhsBatch := []
  wf := dot_S524288x256_S256x4_S524288x4_1_0_0_1_n_n_wf

class Facts : Prop extends Facts₀ where

variable [Facts]
-- ==== Proof.RefOps.lean ====
/- The reference program's @main as the list of its 123 host operations, in program order, copied operation by
   operation from the printed windows main_part0, main_part1, main_part2; and the per-operation facts that each
   operation touches TensorCore references only, in the same order. -/
import proofs.«127100_j22660247453989_1_alg».proof.Proof.Gen.ReferenceIdeal
import Idealize.ShloMosaic.Lib.StableHlo.Run

set_option maxRecDepth 65536

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- @main's 123 operations, in order. -/
abbrev ops : List (HloOp τ sig (Elt F)) :=
  [ StableHlo.nullary main_cst (fun i => FloatOps.ofBits .f32 (lit0 (S2x256.rowMajor i))),
    StableHlo.nullary main_cst_0 (constant S256x256 .f32 0x3F800000#32),
    StableHlo.nullary main_cst_1 (fun i => FloatOps.ofBits .f32 (lit1 (S256x4.rowMajor i))),
    StableHlo.nullary main_cst_2 (constant S_ .f32 0x3F000000#32),
    StableHlo.unary main_cst_2 main_v0 (broadcastInDim S524288x2 ![] bcast_S_S524288x2 : (⟨S_, .f32⟩ : BufTy).Contents (Elt F) → (⟨S524288x2, .f32⟩ : BufTy).Contents (Elt F)),
    StableHlo.binary main_v0 main_arg1 main_v1 (mulf : (⟨S524288x2, .f32⟩ : BufTy).Contents (Elt F) → (⟨S524288x2, .f32⟩ : BufTy).Contents (Elt F) → (⟨S524288x2, .f32⟩ : BufTy).Contents (Elt F)),
    StableHlo.unary main_v1 main_v2 (Host.exp : (⟨S524288x2, .f32⟩ : BufTy).Contents (Elt F) → (⟨S524288x2, .f32⟩ : BufTy).Contents (Elt F)),
    StableHlo.binary main_v2 main_arg2 main_v3 (mulf : (⟨S524288x2, .f32⟩ : BufTy).Contents (Elt F) → (⟨S524288x2, .f32⟩ : BufTy).Contents (Elt F) → (⟨S524288x2, .f32⟩ : BufTy).Contents (Elt F)),
    StableHlo.binary main_arg0 main_v3 main_v4 (addf : (⟨S524288x2, .f32⟩ : BufTy).Contents (Elt F) → (⟨S524288x2, .f32⟩ : BufTy).Contents (Elt F) → (⟨S524288x2, .f32⟩ : BufTy).Contents (Elt F)),
    StableHlo.unary main_arg3 main_v5 ((extractStridedSlice S1x2x256 ![0, 0, 0] · slices_S2x2x256_S1x2x256_0_0_0) : (⟨S2x2x256, .f32⟩ : BufTy).Contents (Elt F) → (⟨S1x2x256, .f32⟩ : BufTy).Contents (Elt F)),
    StableHlo.reshape main_v5 main_v6 rfl shapeCasts_S1x2x256_S2x256,
    StableHlo.unary main_arg4 main_v7 ((extractStridedSlice S1x256 ![0, 0] · slices_S2x256_S1x256_0_0) : (⟨S2x256, .f32⟩ : BufTy).Contents (Elt F) → (⟨S1x256, .f32⟩ : BufTy).Contents (Elt F)),
    StableHlo.reshape main_v7 main_v8 rfl shapeCasts_S1x256_S256,
    StableHlo.unary main_arg5 main_v9 ((extractStridedSlice S1x256x256 ![0, 0, 0] · slices_S2x256x256_S1x256x256_0_0_0) : (⟨S2x256x256, .f32⟩ : BufTy).Contents (Elt F) → (⟨S1x256x256, .f32⟩ : BufTy).Contents (Elt F)),
    StableHlo.reshape main_v9 main_v10 rfl shapeCasts_S1x256x256_S256x256,
    StableHlo.unary main_arg6 main_v11 ((extractStridedSlice S1x256 ![0, 0] · slices_S2x256_S1x256_0_0) : (⟨S2x256, .f32⟩ : BufTy).Contents (Elt F) → (⟨S1x256, .f32⟩ : BufTy).Contents (Elt F)),
    StableHlo.reshape main_v11 main_v12 rfl shapeCasts_S1x256_S256,
    StableHlo.unary main_arg7 main_v13 ((extractStridedSlice S1x256x4 ![0, 0, 0] · slices_S2x256x4_S1x256x4_0_0_0) : (⟨S2x256x4, .f32⟩ : BufTy).Contents (Elt F) → (⟨S1x256x4, .f32⟩ : BufTy).Contents (Elt F)),
    StableHlo.reshape main_v13 main_v14 rfl shapeCasts_S1x256x4_S256x4,
    StableHlo.unary main_arg8 main_v15 ((extractStridedSlice S1x4 ![0, 0] · slices_S2x4_S1x4_0_0) : (⟨S2x4, .f32⟩ : BufTy).Contents (Elt F) → (⟨S1x4, .f32⟩ : BufTy).Contents (Elt F)),
    StableHlo.reshape main_v15 main_v16 rfl shapeCasts_S1x4_S4,
    StableHlo.binary main_v6 main_cst main_v17 (mulf : (⟨S2x256, .f32⟩ : BufTy).Contents (Elt F) → (⟨S2x256, .f32⟩ : BufTy).Contents (Elt F) → (⟨S2x256, .f32⟩ : BufTy).Contents (Elt F)),
    StableHlo.binary main_v10 main_cst_0 main_v18 (mulf : (⟨S256x256, .f32⟩ : BufTy).Contents (Elt F) → (⟨S256x256, .f32⟩ : BufTy).Contents (Elt F) → (⟨S256x256, .f32⟩ : BufTy).Contents (Elt F)),
    StableHlo.binary main_v14 main_cst_1 main_v19 (mulf : (⟨S256x4, .f32⟩ : BufTy).Contents (Elt F) → (⟨S256x4, .f32⟩ : BufTy).Contents (Elt F) → (⟨S256x4, .f32⟩ : BufTy).Contents (Elt F)),
    StableHlo.nullary main_cst_3 (constant S_ .f32 0x00000000#32),
    StableHlo.unary main_cst_3 main_v20 (broadcastInDim S524288x2 ![] bcast_S_S524288x2 : (⟨S_, .f32⟩ : BufTy).Contents (Elt F) → (⟨S524288x2, .f32⟩ : BufTy).Contents (Elt F)),
    StableHlo.binary main_v20 main_v17 main_v21 ((fun l r => Host.dotGeneral dot_S524288x2_S2x256_S524288x256_1_0_0_1_n_n none l r) : (⟨S524288x2, .f32⟩ : BufTy).Contents (Elt F) → (⟨S2x256, .f32⟩ : BufTy).Contents (Elt F) → (⟨S524288x256, .f32⟩ : BufTy).Contents (Elt F)),
    StableHlo.unary main_v8 main_v22 (broadcastInDim S1x256 ![1] bcast_S256_S1x256_1 : (⟨S256, .f32⟩ : BufTy).Contents (Elt F) → (⟨S1x256, .f32⟩ : BufTy).Contents (Elt F)),
    StableHlo.unary main_v22 main_v23 (broadcastInDim S524288x256 ![0, 1] bcast_S1x256_S524288x256_0_1 : (⟨S1x256, .f32⟩ : BufTy).Contents (Elt F) → (⟨S524288x256, .f32⟩ : BufTy).Contents (Elt F)),
    StableHlo.binary main_v21 main_v23 main_v24 (addf : (⟨S524288x256, .f32⟩ : BufTy).Contents (Elt F) → (⟨S524288x256, .f32⟩ : BufTy).Contents (Elt F) → (⟨S524288x256, .f32⟩ : BufTy).Contents (Elt F)),
    StableHlo.binary main_v24 main_v18 main_v25 ((fun l r => Host.dotGeneral dot_S524288x256_S256x256_S524288x256_1_0_0_1_n_n none l r) : (⟨S524288x256, .f32⟩ : BufTy).Contents (Elt F) → (⟨S256x256, .f32⟩ : BufTy).Contents (Elt F) → (⟨S524288x256, .f32⟩ : BufTy).Contents (Elt F)),
    StableHlo.unary main_v12 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S524288x256 ![0, 1] bcast_S1x256_S524288x256_0_1 : (⟨S1x256, .f32⟩ : BufTy).Contents (Elt F) → (⟨S524288x256, .f32⟩ : BufTy).Contents (Elt F)),
    StableHlo.binary main_v25 main_v27 main_v28 (addf : (⟨S524288x256, .f32⟩ : BufTy).Contents (Elt F) → (⟨S524288x256, .f32⟩ : BufTy).Contents (Elt F) → (⟨S524288x256, .f32⟩ : BufTy).Contents (Elt F)),
    StableHlo.binary main_v28 main_v19 main_v29 ((fun l r => Host.dotGeneral dot_S524288x256_S256x4_S524288x4_1_0_0_1_n_n none l r) : (⟨S524288x256, .f32⟩ : BufTy).Contents (Elt F) → (⟨S256x4, .f32⟩ : BufTy).Contents (Elt F) → (⟨S524288x4, .f32⟩ : BufTy).Contents (Elt F)),
    StableHlo.unary main_v16 main_v30 (broadcastInDim S1x4 ![1] bcast_S4_S1x4_1 : (⟨S4, .f32⟩ : BufTy).Contents (Elt F) → (⟨S1x4, .f32⟩ : BufTy).Contents (Elt F)),
    StableHlo.unary main_v30 main_v31 (broadcastInDim S524288x4 ![0, 1] bcast_S1x4_S524288x4_0_1 : (⟨S1x4, .f32⟩ : BufTy).Contents (Elt F) → (⟨S524288x4, .f32⟩ : BufTy).Contents (Elt F)),
    StableHlo.binary main_v29 main_v31 main_v32 (addf : (⟨S524288x4, .f32⟩ : BufTy).Contents (Elt F) → (⟨S524288x4, .f32⟩ : BufTy).Contents (Elt F) → (⟨S524288x4, .f32⟩ : BufTy).Contents (Elt F)),
    StableHlo.reshape main_v32 main_v33 rfl shapeCasts_S524288x4_S524288x2x2,
    StableHlo.unary main_v33 main_v34 ((extractStridedSlice S524288x2x1 ![0, 0, 0] · slices_S524288x2x2_S524288x2x1_0_0_0) : (⟨S524288x2x2, .f32⟩ : BufTy).Contents (Elt F) → (⟨S524288x2x1, .f32⟩ : BufTy).Contents (Elt F)),
    StableHlo.reshape main_v34 main_v35 rfl shapeCasts_S524288x2x1_S524288x2,
    StableHlo.unary main_v33 main_v36 ((extractStridedSlice S524288x2x1 ![0, 0, 1] · slices_S524288x2x2_S524288x2x1_0_0_1) : (⟨S524288x2x2, .f32⟩ : BufTy).Contents (Elt F) → (⟨S524288x2x1, .f32⟩ : BufTy).Contents (Elt F)),
    StableHlo.reshape main_v36 main_v37 rfl shapeCasts_S524288x2x1_S524288x2,
    StableHlo.unary main_v37 main_v38 (Host.exp : (⟨S524288x2, .f32⟩ : BufTy).Contents (Elt F) → (⟨S524288x2, .f32⟩ : BufTy).Contents (Elt F)),
    StableHlo.binary main_v4 main_v38 main_v39 (mulf : (⟨S524288x2, .f32⟩ : BufTy).Contents (Elt F) → (⟨S524288x2, .f32⟩ : BufTy).Contents (Elt F) → (⟨S524288x2, .f32⟩ : BufTy).Contents (Elt F)),
    StableHlo.binary main_v39 main_v35 main_v40 (addf : (⟨S524288x2, .f32⟩ : BufTy).Contents (Elt F) → (⟨S524288x2, .f32⟩ : BufTy).Contents (Elt F) → (⟨S524288x2, .f32⟩ : BufTy).Contents (Elt F)),
    StableHlo.binary main_v40 main_v17 main_v41 ((fun l r => Host.dotGeneral dot_S524288x2_S2x256_S524288x256_1_0_0_1_n_n none l r) : (⟨S524288x2, .f32⟩ : BufTy).Contents (Elt F) → (⟨S2x256, .f32⟩ : BufTy).Contents (Elt F) → (⟨S524288x256, .f32⟩ : BufTy).Contents (Elt F)),
    StableHlo.unary main_v8 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S524288x256 ![0, 1] bcast_S1x256_S524288x256_0_1 : (⟨S1x256, .f32⟩ : BufTy).Contents (Elt F) → (⟨S524288x256, .f32⟩ : BufTy).Contents (Elt F)),
    StableHlo.binary main_v41 main_v43 main_v44 (addf : (⟨S524288x256, .f32⟩ : BufTy).Contents (Elt F) → (⟨S524288x256, .f32⟩ : BufTy).Contents (Elt F) → (⟨S524288x256, .f32⟩ : BufTy).Contents (Elt F)),
    StableHlo.binary main_v44 main_v18 main_v45 ((fun l r => Host.dotGeneral dot_S524288x256_S256x256_S524288x256_1_0_0_1_n_n none l r) : (⟨S524288x256, .f32⟩ : BufTy).Contents (Elt F) → (⟨S256x256, .f32⟩ : BufTy).Contents (Elt F) → (⟨S524288x256, .f32⟩ : BufTy).Contents (Elt F)),
    StableHlo.unary main_v12 main_v46 (broadcastInDim S1x256 ![1] bcast_S256_S1x256_1 : (⟨S256, .f32⟩ : BufTy).Contents (Elt F) → (⟨S1x256, .f32⟩ : BufTy).Contents (Elt F)),
    StableHlo.unary main_v46 main_v47 (broadcastInDim S524288x256 ![0, 1] bcast_S1x256_S524288x256_0_1 : (⟨S1x256, .f32⟩ : BufTy).Contents (Elt F) → (⟨S524288x256, .f32⟩ : BufTy).Contents (Elt F)),
    StableHlo.binary main_v45 main_v47 main_v48 (addf : (⟨S524288x256, .f32⟩ : BufTy).Contents (Elt F) → (⟨S524288x256, .f32⟩ : BufTy).Contents (Elt F) → (⟨S524288x256, .f32⟩ : BufTy).Contents (Elt F)),
    StableHlo.binary main_v48 main_v19 main_v49 ((fun l r => Host.dotGeneral dot_S524288x256_S256x4_S524288x4_1_0_0_1_n_n none l r) : (⟨S524288x256, .f32⟩ : BufTy).Contents (Elt F) → (⟨S256x4, .f32⟩ : BufTy).Contents (Elt F) → (⟨S524288x4, .f32⟩ : BufTy).Contents (Elt F)),
    StableHlo.unary main_v16 main_v50 (broadcastInDim S1x4 ![1] bcast_S4_S1x4_1 : (⟨S4, .f32⟩ : BufTy).Contents (Elt F) → (⟨S1x4, .f32⟩ : BufTy).Contents (Elt F)),
    StableHlo.unary main_v50 main_v51 (broadcastInDim S524288x4 ![0, 1] bcast_S1x4_S524288x4_0_1 : (⟨S1x4, .f32⟩ : BufTy).Contents (Elt F) → (⟨S524288x4, .f32⟩ : BufTy).Contents (Elt F)),
    StableHlo.binary main_v49 main_v51 main_v52 (addf : (⟨S524288x4, .f32⟩ : BufTy).Contents (Elt F) → (⟨S524288x4, .f32⟩ : BufTy).Contents (Elt F) → (⟨S524288x4, .f32⟩ : BufTy).Contents (Elt F)),
    StableHlo.reshape main_v52 main_v53 rfl shapeCasts_S524288x4_S524288x2x2,
    StableHlo.unary main_v53 main_v54 ((extractStridedSlice S524288x2x1 ![0, 0, 0] · slices_S524288x2x2_S524288x2x1_0_0_0) : (⟨S524288x2x2, .f32⟩ : BufTy).Contents (Elt F) → (⟨S524288x2x1, .f32⟩ : BufTy).Contents (Elt F)),
    StableHlo.reshape main_v54 main_v55 rfl shapeCasts_S524288x2x1_S524288x2,
    StableHlo.unary main_v53 main_v56 ((extractStridedSlice S524288x2x1 ![0, 0, 1] · slices_S524288x2x2_S524288x2x1_0_0_1) : (⟨S524288x2x2, .f32⟩ : BufTy).Contents (Elt F) → (⟨S524288x2x1, .f32⟩ : BufTy).Contents (Elt F)),
    StableHlo.reshape main_v56 main_v57 rfl shapeCasts_S524288x2x1_S524288x2,
    StableHlo.unary main_v57 main_v58 (Host.exp : (⟨S524288x2, .f32⟩ : BufTy).Contents (Elt F) → (⟨S524288x2, .f32⟩ : BufTy).Contents (Elt F)),
    StableHlo.binary main_v4 main_v58 main_v59 (mulf : (⟨S524288x2, .f32⟩ : BufTy).Contents (Elt F) → (⟨S524288x2, .f32⟩ : BufTy).Contents (Elt F) → (⟨S524288x2, .f32⟩ : BufTy).Contents (Elt F)),
    StableHlo.binary main_v59 main_v55 main_v60 (addf : (⟨S524288x2, .f32⟩ : BufTy).Contents (Elt F) → (⟨S524288x2, .f32⟩ : BufTy).Contents (Elt F) → (⟨S524288x2, .f32⟩ : BufTy).Contents (Elt F)),
    StableHlo.unary main_arg3 main_v61 ((extractStridedSlice S1x2x256 ![1, 0, 0] · slices_S2x2x256_S1x2x256_1_0_0) : (⟨S2x2x256, .f32⟩ : BufTy).Contents (Elt F) → (⟨S1x2x256, .f32⟩ : BufTy).Contents (Elt F)),
    StableHlo.reshape main_v61 main_v62 rfl shapeCasts_S1x2x256_S2x256,
    StableHlo.unary main_arg4 main_v63 ((extractStridedSlice S1x256 ![1, 0] · slices_S2x256_S1x256_1_0) : (⟨S2x256, .f32⟩ : BufTy).Contents (Elt F) → (⟨S1x256, .f32⟩ : BufTy).Contents (Elt F)),
    StableHlo.reshape main_v63 main_v64 rfl shapeCasts_S1x256_S256,
    StableHlo.unary main_arg5 main_v65 ((extractStridedSlice S1x256x256 ![1, 0, 0] · slices_S2x256x256_S1x256x256_1_0_0) : (⟨S2x256x256, .f32⟩ : BufTy).Contents (Elt F) → (⟨S1x256x256, .f32⟩ : BufTy).Contents (Elt F)),
    StableHlo.reshape main_v65 main_v66 rfl shapeCasts_S1x256x256_S256x256,
    StableHlo.unary main_arg6 main_v67 ((extractStridedSlice S1x256 ![1, 0] · slices_S2x256_S1x256_1_0) : (⟨S2x256, .f32⟩ : BufTy).Contents (Elt F) → (⟨S1x256, .f32⟩ : BufTy).Contents (Elt F)),
    StableHlo.reshape main_v67 main_v68 rfl shapeCasts_S1x256_S256,
    StableHlo.unary main_arg7 main_v69 ((extractStridedSlice S1x256x4 ![1, 0, 0] · slices_S2x256x4_S1x256x4_1_0_0) : (⟨S2x256x4, .f32⟩ : BufTy).Contents (Elt F) → (⟨S1x256x4, .f32⟩ : BufTy).Contents (Elt F)),
    StableHlo.reshape main_v69 main_v70 rfl shapeCasts_S1x256x4_S256x4,
    StableHlo.unary main_arg8 main_v71 ((extractStridedSlice S1x4 ![1, 0] · slices_S2x4_S1x4_1_0) : (⟨S2x4, .f32⟩ : BufTy).Contents (Elt F) → (⟨S1x4, .f32⟩ : BufTy).Contents (Elt F)),
    StableHlo.reshape main_v71 main_v72 rfl shapeCasts_S1x4_S4,
    StableHlo.binary main_v62 main_cst main_v73 (mulf : (⟨S2x256, .f32⟩ : BufTy).Contents (Elt F) → (⟨S2x256, .f32⟩ : BufTy).Contents (Elt F) → (⟨S2x256, .f32⟩ : BufTy).Contents (Elt F)),
    StableHlo.binary main_v66 main_cst_0 main_v74 (mulf : (⟨S256x256, .f32⟩ : BufTy).Contents (Elt F) → (⟨S256x256, .f32⟩ : BufTy).Contents (Elt F) → (⟨S256x256, .f32⟩ : BufTy).Contents (Elt F)),
    StableHlo.binary main_v70 main_cst_1 main_v75 (mulf : (⟨S256x4, .f32⟩ : BufTy).Contents (Elt F) → (⟨S256x4, .f32⟩ : BufTy).Contents (Elt F) → (⟨S256x4, .f32⟩ : BufTy).Contents (Elt F)),
    StableHlo.nullary main_cst_4 (constant S_ .f32 0x00000000#32),
    StableHlo.unary main_cst_4 main_v76 (broadcastInDim S524288x2 ![] bcast_S_S524288x2 : (⟨S_, .f32⟩ : BufTy).Contents (Elt F) → (⟨S524288x2, .f32⟩ : BufTy).Contents (Elt F)),
    StableHlo.binary main_v76 main_v73 main_v77 ((fun l r => Host.dotGeneral dot_S524288x2_S2x256_S524288x256_1_0_0_1_n_n none l r) : (⟨S524288x2, .f32⟩ : BufTy).Contents (Elt F) → (⟨S2x256, .f32⟩ : BufTy).Contents (Elt F) → (⟨S524288x256, .f32⟩ : BufTy).Contents (Elt F)),
    StableHlo.unary main_v64 main_v78 (broadcastInDim S1x256 ![1] bcast_S256_S1x256_1 : (⟨S256, .f32⟩ : BufTy).Contents (Elt F) → (⟨S1x256, .f32⟩ : BufTy).Contents (Elt F)),
    StableHlo.unary main_v78 main_v79 (broadcastInDim S524288x256 ![0, 1] bcast_S1x256_S524288x256_0_1 : (⟨S1x256, .f32⟩ : BufTy).Contents (Elt F) → (⟨S524288x256, .f32⟩ : BufTy).Contents (Elt F)),
    StableHlo.binary main_v77 main_v79 main_v80 (addf : (⟨S524288x256, .f32⟩ : BufTy).Contents (Elt F) → (⟨S524288x256, .f32⟩ : BufTy).Contents (Elt F) → (⟨S524288x256, .f32⟩ : BufTy).Contents (Elt F)),
    StableHlo.binary main_v80 main_v74 main_v81 ((fun l r => Host.dotGeneral dot_S524288x256_S256x256_S524288x256_1_0_0_1_n_n none l r) : (⟨S524288x256, .f32⟩ : BufTy).Contents (Elt F) → (⟨S256x256, .f32⟩ : BufTy).Contents (Elt F) → (⟨S524288x256, .f32⟩ : BufTy).Contents (Elt F)),
    StableHlo.unary main_v68 main_v82 (broadcastInDim S1x256 ![1] bcast_S256_S1x256_1 : (⟨S256, .f32⟩ : BufTy).Contents (Elt F) → (⟨S1x256, .f32⟩ : BufTy).Contents (Elt F)),
    StableHlo.unary main_v82 main_v83 (broadcastInDim S524288x256 ![0, 1] bcast_S1x256_S524288x256_0_1 : (⟨S1x256, .f32⟩ : BufTy).Contents (Elt F) → (⟨S524288x256, .f32⟩ : BufTy).Contents (Elt F)),
    StableHlo.binary main_v81 main_v83 main_v84 (addf : (⟨S524288x256, .f32⟩ : BufTy).Contents (Elt F) → (⟨S524288x256, .f32⟩ : BufTy).Contents (Elt F) → (⟨S524288x256, .f32⟩ : BufTy).Contents (Elt F)),
    StableHlo.binary main_v84 main_v75 main_v85 ((fun l r => Host.dotGeneral dot_S524288x256_S256x4_S524288x4_1_0_0_1_n_n none l r) : (⟨S524288x256, .f32⟩ : BufTy).Contents (Elt F) → (⟨S256x4, .f32⟩ : BufTy).Contents (Elt F) → (⟨S524288x4, .f32⟩ : BufTy).Contents (Elt F)),
    StableHlo.unary main_v72 main_v86 (broadcastInDim S1x4 ![1] bcast_S4_S1x4_1 : (⟨S4, .f32⟩ : BufTy).Contents (Elt F) → (⟨S1x4, .f32⟩ : BufTy).Contents (Elt F)),
    StableHlo.unary main_v86 main_v87 (broadcastInDim S524288x4 ![0, 1] bcast_S1x4_S524288x4_0_1 : (⟨S1x4, .f32⟩ : BufTy).Contents (Elt F) → (⟨S524288x4, .f32⟩ : BufTy).Contents (Elt F)),
    StableHlo.binary main_v85 main_v87 main_v88 (addf : (⟨S524288x4, .f32⟩ : BufTy).Contents (Elt F) → (⟨S524288x4, .f32⟩ : BufTy).Contents (Elt F) → (⟨S524288x4, .f32⟩ : BufTy).Contents (Elt F)),
    StableHlo.reshape main_v88 main_v89 rfl shapeCasts_S524288x4_S524288x2x2,
    StableHlo.unary main_v89 main_v90 ((extractStridedSlice S524288x2x1 ![0, 0, 0] · slices_S524288x2x2_S524288x2x1_0_0_0) : (⟨S524288x2x2, .f32⟩ : BufTy).Contents (Elt F) → (⟨S524288x2x1, .f32⟩ : BufTy).Contents (Elt F)),
    StableHlo.reshape main_v90 main_v91 rfl shapeCasts_S524288x2x1_S524288x2,
    StableHlo.unary main_v89 main_v92 ((extractStridedSlice S524288x2x1 ![0, 0, 1] · slices_S524288x2x2_S524288x2x1_0_0_1) : (⟨S524288x2x2, .f32⟩ : BufTy).Contents (Elt F) → (⟨S524288x2x1, .f32⟩ : BufTy).Contents (Elt F)),
    StableHlo.reshape main_v92 main_v93 rfl shapeCasts_S524288x2x1_S524288x2,
    StableHlo.unary main_v93 main_v94 (Host.exp : (⟨S524288x2, .f32⟩ : BufTy).Contents (Elt F) → (⟨S524288x2, .f32⟩ : BufTy).Contents (Elt F)),
    StableHlo.binary main_v60 main_v94 main_v95 (mulf : (⟨S524288x2, .f32⟩ : BufTy).Contents (Elt F) → (⟨S524288x2, .f32⟩ : BufTy).Contents (Elt F) → (⟨S524288x2, .f32⟩ : BufTy).Contents (Elt F)),
    StableHlo.binary main_v95 main_v91 main_v96 (addf : (⟨S524288x2, .f32⟩ : BufTy).Contents (Elt F) → (⟨S524288x2, .f32⟩ : BufTy).Contents (Elt F) → (⟨S524288x2, .f32⟩ : BufTy).Contents (Elt F)),
    StableHlo.binary main_v96 main_v73 main_v97 ((fun l r => Host.dotGeneral dot_S524288x2_S2x256_S524288x256_1_0_0_1_n_n none l r) : (⟨S524288x2, .f32⟩ : BufTy).Contents (Elt F) → (⟨S2x256, .f32⟩ : BufTy).Contents (Elt F) → (⟨S524288x256, .f32⟩ : BufTy).Contents (Elt F)),
    StableHlo.unary main_v64 main_v98 (broadcastInDim S1x256 ![1] bcast_S256_S1x256_1 : (⟨S256, .f32⟩ : BufTy).Contents (Elt F) → (⟨S1x256, .f32⟩ : BufTy).Contents (Elt F)),
    StableHlo.unary main_v98 main_v99 (broadcastInDim S524288x256 ![0, 1] bcast_S1x256_S524288x256_0_1 : (⟨S1x256, .f32⟩ : BufTy).Contents (Elt F) → (⟨S524288x256, .f32⟩ : BufTy).Contents (Elt F)),
    StableHlo.binary main_v97 main_v99 main_v100 (addf : (⟨S524288x256, .f32⟩ : BufTy).Contents (Elt F) → (⟨S524288x256, .f32⟩ : BufTy).Contents (Elt F) → (⟨S524288x256, .f32⟩ : BufTy).Contents (Elt F)),
    StableHlo.binary main_v100 main_v74 main_v101 ((fun l r => Host.dotGeneral dot_S524288x256_S256x256_S524288x256_1_0_0_1_n_n none l r) : (⟨S524288x256, .f32⟩ : BufTy).Contents (Elt F) → (⟨S256x256, .f32⟩ : BufTy).Contents (Elt F) → (⟨S524288x256, .f32⟩ : BufTy).Contents (Elt F)),
    StableHlo.unary main_v68 main_v102 (broadcastInDim S1x256 ![1] bcast_S256_S1x256_1 : (⟨S256, .f32⟩ : BufTy).Contents (Elt F) → (⟨S1x256, .f32⟩ : BufTy).Contents (Elt F)),
    StableHlo.unary main_v102 main_v103 (broadcastInDim S524288x256 ![0, 1] bcast_S1x256_S524288x256_0_1 : (⟨S1x256, .f32⟩ : BufTy).Contents (Elt F) → (⟨S524288x256, .f32⟩ : BufTy).Contents (Elt F)),
    StableHlo.binary main_v101 main_v103 main_v104 (addf : (⟨S524288x256, .f32⟩ : BufTy).Contents (Elt F) → (⟨S524288x256, .f32⟩ : BufTy).Contents (Elt F) → (⟨S524288x256, .f32⟩ : BufTy).Contents (Elt F)),
    StableHlo.binary main_v104 main_v75 main_v105 ((fun l r => Host.dotGeneral dot_S524288x256_S256x4_S524288x4_1_0_0_1_n_n none l r) : (⟨S524288x256, .f32⟩ : BufTy).Contents (Elt F) → (⟨S256x4, .f32⟩ : BufTy).Contents (Elt F) → (⟨S524288x4, .f32⟩ : BufTy).Contents (Elt F)),
    StableHlo.unary main_v72 main_v106 (broadcastInDim S1x4 ![1] bcast_S4_S1x4_1 : (⟨S4, .f32⟩ : BufTy).Contents (Elt F) → (⟨S1x4, .f32⟩ : BufTy).Contents (Elt F)),
    StableHlo.unary main_v106 main_v107 (broadcastInDim S524288x4 ![0, 1] bcast_S1x4_S524288x4_0_1 : (⟨S1x4, .f32⟩ : BufTy).Contents (Elt F) → (⟨S524288x4, .f32⟩ : BufTy).Contents (Elt F)),
    StableHlo.binary main_v105 main_v107 main_v108 (addf : (⟨S524288x4, .f32⟩ : BufTy).Contents (Elt F) → (⟨S524288x4, .f32⟩ : BufTy).Contents (Elt F) → (⟨S524288x4, .f32⟩ : BufTy).Contents (Elt F)),
    StableHlo.reshape main_v108 main_v109 rfl shapeCasts_S524288x4_S524288x2x2,
    StableHlo.unary main_v109 main_v110 ((extractStridedSlice S524288x2x1 ![0, 0, 0] · slices_S524288x2x2_S524288x2x1_0_0_0) : (⟨S524288x2x2, .f32⟩ : BufTy).Contents (Elt F) → (⟨S524288x2x1, .f32⟩ : BufTy).Contents (Elt F)),
    StableHlo.reshape main_v110 main_v111 rfl shapeCasts_S524288x2x1_S524288x2,
    StableHlo.unary main_v109 main_v112 ((extractStridedSlice S524288x2x1 ![0, 0, 1] · slices_S524288x2x2_S524288x2x1_0_0_1) : (⟨S524288x2x2, .f32⟩ : BufTy).Contents (Elt F) → (⟨S524288x2x1, .f32⟩ : BufTy).Contents (Elt F)),
    StableHlo.reshape main_v112 main_v113 rfl shapeCasts_S524288x2x1_S524288x2,
    StableHlo.unary main_v113 main_v114 (Host.exp : (⟨S524288x2, .f32⟩ : BufTy).Contents (Elt F) → (⟨S524288x2, .f32⟩ : BufTy).Contents (Elt F)),
    StableHlo.binary main_v60 main_v114 main_v115 (mulf : (⟨S524288x2, .f32⟩ : BufTy).Contents (Elt F) → (⟨S524288x2, .f32⟩ : BufTy).Contents (Elt F) → (⟨S524288x2, .f32⟩ : BufTy).Contents (Elt F)),
    StableHlo.binary main_v115 main_v111 main_v116 (addf : (⟨S524288x2, .f32⟩ : BufTy).Contents (Elt F) → (⟨S524288x2, .f32⟩ : BufTy).Contents (Elt F) → (⟨S524288x2, .f32⟩ : BufTy).Contents (Elt F)) ]

/-- Every operation's buffers are TensorCore references. -/
theorem ops_sub : (ops : List (HloOp τ sig (Elt F))).Forall fun op => op.bufs ⊆ tcRefs τ sig :=
  ⟨nullary_bufs_sub .., nullary_bufs_sub .., nullary_bufs_sub .., nullary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., reshape_bufs_sub .., unary_bufs_sub .., reshape_bufs_sub .., unary_bufs_sub .., reshape_bufs_sub .., unary_bufs_sub .., binary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., reshape_bufs_sub .., unary_bufs_sub .., reshape_bufs_sub .., unary_bufs_sub .., reshape_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., reshape_bufs_sub .., unary_bufs_sub .., reshape_bufs_sub .., unary_bufs_sub .., reshape_bufs_sub .., unary_bufs_sub .., binary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., reshape_bufs_sub .., unary_bufs_sub .., reshape_bufs_sub .., unary_bufs_sub .., reshape_bufs_sub .., unary_bufs_sub .., binary_bufs_sub .., binary_bufs_sub ..⟩

end Cert.ReferenceIdeal.RefOps

end
-- ==== Proof.RefRun.lean ====
/-
  The reference program's run. Its @main is a straight line of 123 host operations (the table beside this module),
  so every weakly fair execution ends, without a fault, with each buffer at the fold of those operations over the
  launch contents: the arguments are written by no operation and end as launched, and the result buffer ends at the
  operations' composed value of the arguments.
-/
import proofs.«127100_j22660247453989_1_alg».proof.Proof.RefOps

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

set_option maxRecDepth 65536 in
/-- @main, window after window, is the sequence of the listed operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates with every buffer at the fold of the operations over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.RefRun

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.MafSpec.lean ====
/-
  The function both programs compute, one row at a time.

  A row of the result depends on the same row of the three sample arrays and on the weights only. With
  x₀ = z_mean + exp(½ · z_log_var) · ε (entry by entry of the row), a flow with weights P sends a row x to
  pass x (pass x 0), where pass x y = x · exp(ℓ) + s and (s, ℓ) are read off the four outputs of the network
  net P y = A₃ (A₂ (A₁ y)), each Aᵢ v = (∑ₖ v k · Wᵢ k j) + bᵢ j. Which two of the four outputs are the shift and which
  two the log-scale is a parameter: one program lists them interleaved, the other grouped.

  Below the definitions, each whole-array operation the two programs use is read on a row: a product with a bias
  (in either spelling) is the affine map of the row, a column slice or a reshape-and-slice picks entries of the row,
  and everything else acts entry by entry.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«127100_j22660247453989_1_alg».proof.Proof.LibRowDims

noncomputable section

open scoped BigOperators

namespace Cert.Maf

open Idealize.ShloMosaic Idealize.ShloMosaic.ValueIdx Idealize.ShloMosaic.RowDims

/-! ## The function -/

/-- Row `p` of a matrix. -/
def row {N C : Nat} (a : (⟨2, ![N, C]⟩ : Shape).Idx → EReal) (p : Fin N) : Fin C → EReal := fun c => a (ix2 p c)

/-- A vector as a function of its one coordinate. -/
def vec {J : Nat} (b : (⟨1, ![J]⟩ : Shape).Idx → EReal) : Fin J → EReal := fun j => b (ix1 j)

/-- One affine layer on a row: `v ↦ v · W + b`. -/
def affine {K J : Nat} (W : Fin K → Fin J → EReal) (b : Fin J → EReal) (v : Fin K → EReal) : Fin J → EReal :=
  fun j => (∑ k : Fin K, v k * W k j) + b j

/-- One flow's weights, masked, as functions of their coordinates. -/
structure Params where
  W1 : Fin 2 → Fin 256 → EReal
  b1 : Fin 256 → EReal
  W2 : Fin 256 → Fin 256 → EReal
  b2 : Fin 256 → EReal
  W3 : Fin 256 → Fin 4 → EReal
  b3 : Fin 4 → EReal

/-- The three-layer network on a row: two inputs, four outputs. -/
def net (P : Params) (y : Fin 2 → EReal) : Fin 4 → EReal :=
  affine P.W3 P.b3 (affine P.W2 P.b2 (affine P.W1 P.b1 y))

/-- One autoregressive pass: `x · exp(log-scale) + shift`, the shift of coordinate `d` at output `sh d` of the network
    on `y`, its log-scale at output `ls d`. -/
def pass (sh ls : Fin 2 → Fin 4) (P : Params) (x y : Fin 2 → EReal) : Fin 2 → EReal :=
  fun d => x d * Ideal.exp (net P y (ls d)) + net P y (sh d)

/-- The row of zeros the passes start from. -/
def zero2 : Fin 2 → EReal := fun _ => Ideal.ofBits .f32 0x00000000#32

/-- One flow: two passes from zero. -/
def flow (sh ls : Fin 2 → Fin 4) (P : Params) (x : Fin 2 → EReal) : Fin 2 → EReal :=
  pass sh ls P x (pass sh ls P x zero2)

/-- The sample: `z_mean + exp(½ · z_log_var) · ε`. -/
def reparam (zm zl ep : Fin 2 → EReal) : Fin 2 → EReal :=
  fun d => zm d + Ideal.exp (Ideal.ofBits .f32 0x3F000000#32 * zl d) * ep d

/-- The whole map on a row: the sample through the two flows. -/
def maf (sh ls : Fin 2 → Fin 4) (P0 P1 : Params) (zm zl ep : Fin 2 → EReal) : Fin 2 → EReal :=
  flow sh ls P1 (flow sh ls P0 (reparam zm zl ep))

/-- Interleaved outputs: shift at `2d`, log-scale at `2d + 1`. -/
def shI (d : Fin 2) : Fin 4 := ⟨2 * d.val, by omega⟩
def lsI (d : Fin 2) : Fin 4 := ⟨2 * d.val + 1, by omega⟩
/-- Grouped outputs: the two shifts first, then the two log-scales. -/
def shG (d : Fin 2) : Fin 4 := ⟨d.val, by omega⟩
def lsG (d : Fin 2) : Fin 4 := ⟨2 + d.val, by omega⟩

/-- The regrouping of the four outputs: position `q` of the grouped order holds output `perm q` of the interleaved one. -/
def perm (q : Fin 4) : Fin 4 := ![0, 2, 1, 3] q

theorem perm_shG (d : Fin 2) : perm (shG d) = shI d := by fin_cases d <;> rfl
theorem perm_lsG (d : Fin 2) : perm (lsG d) = lsI d := by fin_cases d <;> rfl

/-- The weights with the last layer's outputs regrouped. -/
def Params.regroup (P : Params) : Params :=
  { P with W3 := fun k q => P.W3 k (perm q), b3 := fun q => P.b3 (perm q) }

/-- The network with regrouped last layer is the network, read at the regrouped output. -/
theorem net_regroup (P : Params) (y : Fin 2 → EReal) (q : Fin 4) : net P.regroup y q = net P y (perm q) := rfl

/-- A pass over grouped outputs of the regrouped weights is the pass over interleaved outputs. -/
theorem pass_regroup (P : Params) (x y : Fin 2 → EReal) : pass shG lsG P.regroup x y = pass shI lsI P x y := by
  funext d
  simp only [pass, net_regroup, perm_shG, perm_lsG]

theorem flow_regroup (P : Params) (x : Fin 2 → EReal) : flow shG lsG P.regroup x = flow shI lsI P x := by
  simp only [flow, pass_regroup]

theorem maf_regroup (P0 P1 : Params) (zm zl ep : Fin 2 → EReal) :
    maf shG lsG P0.regroup P1.regroup zm zl ep = maf shI lsI P0 P1 zm zl ep := by
  simp only [maf, flow_regroup]

/-! ## Whole-array operations on a row -/

section Rows

variable {N K J : Nat}

/-- The kernel's layer — a matrix-unit product into zero of the (format-changed) rows with the weights, plus the bias laid
    along every row — is the affine layer on each row. -/
theorem row_affine_kernel (y : FVec Ideal ⟨2, ![N, K]⟩ .f32) (w : FVec Ideal ⟨2, ![K, J]⟩ .bf16) (b : FVec Ideal ⟨1, ![J]⟩ .f32)
    (hT : FTy.bits .bf16 < FTy.bits .f32) (hC : (⟨1, ![J]⟩ : Shape).ShapeCasts ⟨2, ![1, J]⟩)
    (hB : (⟨2, ![1, J]⟩ : Shape).Broadcasts ⟨2, ![N, J]⟩) (p : Fin N) :
    row (addf (FloatOps.matmul (DotDims.plain N K J) none (truncf .bf16 y hT) w (constant ⟨2, ![N, J]⟩ .f32 0x00000000#32))
        (broadcastTo ⟨2, ![N, J]⟩ (shapeCast ⟨2, ![1, J]⟩ b hC) hB)) p
      = affine (row w) (vec b) (row y p) := by
  funext j
  show FloatOps.matmul (DotDims.plain N K J) none (truncf .bf16 y hT) w (constant ⟨2, ![N, J]⟩ .f32 0x00000000#32) (ix2 p j)
      + broadcastTo ⟨2, ![N, J]⟩ (shapeCast ⟨2, ![1, J]⟩ b hC) hB (ix2 p j) = _
  rw [matmul_plain_zero_apply, broadcastTo_1b_ab_apply, shapeCast_a_1a_apply]
  rfl

/-- The host's layer — a product of the rows with the weights, plus the bias broadcast to one row and then down the
    rows — is the affine layer on each row. -/
theorem row_affine_host (y : FVec Ideal ⟨2, ![N, K]⟩ .f32) (w : FVec Ideal ⟨2, ![K, J]⟩ .f32) (b : FVec Ideal ⟨1, ![J]⟩ .f32)
    (h1 : (⟨1, ![J]⟩ : Shape).BroadcastsInDim ⟨2, ![1, J]⟩ ![1])
    (h2 : (⟨2, ![1, J]⟩ : Shape).BroadcastsInDim ⟨2, ![N, J]⟩ ![0, 1]) (p : Fin N) :
    row (addf (Host.dotGeneral (DotDims.plain N K J) none y w)
        (broadcastInDim ⟨2, ![N, J]⟩ ![0, 1] h2 (broadcastInDim ⟨2, ![1, J]⟩ ![1] h1 b))) p
      = affine (row w) (vec b) (row y p) := by
  funext j
  show FloatOps.dotGeneral (DotDims.plain N K J) none _ y w (ix2 p j)
      + broadcastInDim ⟨2, ![N, J]⟩ ![0, 1] h2 (broadcastInDim ⟨2, ![1, J]⟩ ![1] h1 b) (ix2 p j) = _
  rw [dotGeneral_plain_apply]
  have e2 := broadcastInDim_apply ![0, 1] h2 (broadcastInDim ⟨2, ![1, J]⟩ ![1] h1 b) (ix2 p j) (ix2 (0 : Fin 1) j) (by
    intro a
    match a with
    | ⟨0, _⟩ => rfl
    | ⟨1, _⟩ =>
      show j.val = if J = 1 then 0 else j.val
      split
      · have := j.isLt; omega
      · rfl)
  have e1 := broadcastInDim_apply ![1] h1 b (ix2 (0 : Fin 1) j) (ix1 j) (by
    intro a
    match a with
    | ⟨0, _⟩ =>
      show j.val = if J = 1 then 0 else j.val
      split
      · have := j.isLt; omega
      · rfl)
  rw [e2, e1]
  rfl

end Rows

end Cert.Maf

end
-- ==== Proof.MafRows.lean ====
/-
  The remaining whole-array steps of the two programs, read on a row.

  After the last layer a program splits the four outputs of each row into the two shifts and the two log-scales and
  applies one pass, x · exp(log-scale) + shift. One program cuts columns 0–1 and 2–3 (grouped outputs); the other
  reshapes each row of four into two pairs and takes the first and the second of every pair (interleaved outputs):
  entry (p, d) of "first of every pair" is entry (p, 2d) of the four, and of "second of every pair" entry (p, 2d + 1).
-/
import proofs.«127100_j22660247453989_1_alg».proof.Proof.MafSpec

noncomputable section

open scoped BigOperators

namespace Cert.Maf

open Idealize.ShloMosaic Idealize.ShloMosaic.ValueIdx

section Rows

variable {N : Nat}

/-- A pass over grouped outputs, in the vector unit's spelling: the log-scales are columns 2–3 of the four outputs, the
    shifts columns 0–1. -/
theorem row_pass_grouped (x : FVec Ideal ⟨2, ![N, 2]⟩ .f32) (o : FVec Ideal ⟨2, ![N, 4]⟩ .f32)
    (h0 : (⟨2, ![N, 4]⟩ : Shape).Slices ![0, 0] ⟨2, ![N, 2]⟩) (h2 : (⟨2, ![N, 4]⟩ : Shape).Slices ![0, 2] ⟨2, ![N, 2]⟩)
    (p : Fin N) :
    row (addf (mulf x (exp (extractStridedSlice ⟨2, ![N, 2]⟩ ![0, 2] o h2))) (extractStridedSlice ⟨2, ![N, 2]⟩ ![0, 0] o h0)) p
      = fun d => row x p d * Ideal.exp (row o p (lsG d)) + row o p (shG d) := by
  funext d
  show x (ix2 p d) * Ideal.exp (extractStridedSlice ⟨2, ![N, 2]⟩ ![0, 2] o h2 (ix2 p d))
      + extractStridedSlice ⟨2, ![N, 2]⟩ ![0, 0] o h0 (ix2 p d) = _
  rw [slice2_axis1_apply 2 o h2 p d (lsG d) rfl, slice2_axis1_apply 0 o h0 p d (shG d) (by show d.val = 0 + d.val; omega)]
  rfl

/-- Entry `(p, d)` of "component `e` of every pair" of a matrix of four columns read as two pairs is entry
    `(p, 2d + e)` of the matrix. -/
theorem pair_component_apply (e : Fin 2) (o : (⟨2, ![N, 4]⟩ : Shape).Idx → EReal)
    (hc : (⟨2, ![N, 4]⟩ : Shape).ShapeCasts ⟨3, ![N, 2, 2]⟩)
    (hs : (⟨3, ![N, 2, 2]⟩ : Shape).Slices ![0, 0, e.val] ⟨3, ![N, 2, 1]⟩)
    (hd : (⟨3, ![N, 2, 1]⟩ : Shape).ShapeCasts ⟨2, ![N, 2]⟩) (p : Fin N) (d : Fin 2) (k : Fin 4) (hk : k.val = 2 * d.val + e.val) :
    shapeCast ⟨2, ![N, 2]⟩ (extractStridedSlice ⟨3, ![N, 2, 1]⟩ ![0, 0, e.val] (shapeCast ⟨3, ![N, 2, 2]⟩ o hc) hs) hd (ix2 p d)
      = o (ix2 p k) := by
  -- the entry of the pair-component array with the same row-major position
  rw [shapeCast_apply _ hd (ix2 p d) (ix3 p d (0 : Fin 1)) (by
    rw [Shape.rowMajor_val_three, Shape.rowMajor_val_two]
    show (p.val * 2 + d.val) * 1 + 0 = p.val * 2 + d.val
    omega)]
  -- the cut moves the pair's coordinate by e
  rw [extractStridedSlice_apply ![0, 0, e.val] _ hs (ix3 p d (0 : Fin 1)) (ix3 p d e) (by
    intro a
    match a with
    | ⟨0, _⟩ => exact (Nat.zero_add _).symm
    | ⟨1, _⟩ => exact (Nat.zero_add _).symm
    | ⟨2, _⟩ => show e.val = e.val + 0; omega)]
  -- and pair d, component e of row p is column 2d + e
  exact shapeCast_apply o hc (ix3 p d e) (ix2 p k) (by
    rw [Shape.rowMajor_val_three, Shape.rowMajor_val_two]
    show p.val * 4 + k.val = (p.val * 2 + d.val) * 2 + e.val
    omega)

end Rows

end Cert.Maf

end
-- ==== Proof.RefValue.lean ====
/-
  What the reference program computes, one row at a time.

  Its straight line of host operations is the sample x₀ sent through the two flows, each layer a product with the masked
  weights plus the bias broadcast down the rows, each pass x · exp(second of every pair of outputs) + (first of every
  pair). The weights of flow f are slab f of each weight argument, its unit axis removed, times the layer's mask. So row
  p of the result is the specification's row map, over interleaved outputs, at row p of the three sample arguments.
-/
import proofs.«127100_j22660247453989_1_alg».proof.Proof.Gen.ReferenceIdeal
import proofs.«127100_j22660247453989_1_alg».proof.Proof.MafRows
import Idealize.ShloMosaic.Lib.ValueLayout
import Idealize.ShloMosaic.Lib.IdealHost

noncomputable section

namespace Cert.ReferenceIdeal.RefValue

open Cert.ReferenceIdeal Cert.ReferenceIdeal.Gen Idealize.ShloMosaic Idealize.ShloMosaic.TcCoe
open Idealize.SL.Sem Idealize.ShloMosaic.ValueIdx Cert.Maf

/-- The three masks: the first and last layers' tables of zeros and ones, the second layer's all ones. -/
def mask1 : FVec Ideal S2x256 .f32 := fun i => FloatOps.ofBits .f32 (lit0 (S2x256.rowMajor i))
def mask2 : FVec Ideal S256x256 .f32 := constant S256x256 .f32 0x3F800000#32
def mask3 : FVec Ideal S256x4 .f32 := fun i => FloatOps.ofBits .f32 (lit1 (S256x4.rowMajor i))

/-- The sample. -/
def sample (a0 a1 a2 : FVec Ideal S524288x2 .f32) : FVec Ideal S524288x2 .f32 :=
  addf a0 (mulf (Host.exp (mulf (broadcastInDim S524288x2 ![] bcast_S_S524288x2 (constant S_ .f32 0x3F000000#32)) a1)) a2)

/-- The three layers on all rows. -/
def rnet (W1 : FVec Ideal S2x256 .f32) (c1 : FVec Ideal S256 .f32) (W2 : FVec Ideal S256x256 .f32) (c2 : FVec Ideal S256 .f32) (W3 : FVec Ideal S256x4 .f32) (c3 : FVec Ideal S4 .f32) (y : FVec Ideal S524288x2 .f32) : FVec Ideal S524288x4 .f32 :=
  addf (Host.dotGeneral dot_S524288x256_S256x4_S524288x4_1_0_0_1_n_n none
      (addf (Host.dotGeneral dot_S524288x256_S256x256_S524288x256_1_0_0_1_n_n none
          (addf (Host.dotGeneral dot_S524288x2_S2x256_S524288x256_1_0_0_1_n_n none y W1)
            (broadcastInDim S524288x256 ![0, 1] bcast_S1x256_S524288x256_0_1 (broadcastInDim S1x256 ![1] bcast_S256_S1x256_1 c1)))
          W2)
        (broadcastInDim S524288x256 ![0, 1] bcast_S1x256_S524288x256_0_1 (broadcastInDim S1x256 ![1] bcast_S256_S1x256_1 c2)))
      W3)
    (broadcastInDim S524288x4 ![0, 1] bcast_S1x4_S524288x4_0_1 (broadcastInDim S1x4 ![1] bcast_S4_S1x4_1 c3))

/-- The four outputs of every row read as two pairs. -/
def pairs (o : FVec Ideal S524288x4 .f32) : FVec Ideal S524288x2x2 .f32 :=
  fun i => shapeCast S524288x2x2 o shapeCasts_S524288x4_S524288x2x2 i

/-- The first of every pair: the shifts. -/
def firsts (o : FVec Ideal S524288x4 .f32) : FVec Ideal S524288x2 .f32 :=
  fun i => shapeCast S524288x2 (extractStridedSlice S524288x2x1 ![0, 0, 0] (pairs o) slices_S524288x2x2_S524288x2x1_0_0_0) shapeCasts_S524288x2x1_S524288x2 i

/-- The second of every pair: the log-scales. -/
def seconds (o : FVec Ideal S524288x4 .f32) : FVec Ideal S524288x2 .f32 :=
  fun i => shapeCast S524288x2 (extractStridedSlice S524288x2x1 ![0, 0, 1] (pairs o) slices_S524288x2x2_S524288x2x1_0_0_1) shapeCasts_S524288x2x1_S524288x2 i

/-- One pass on all rows. -/
def rpass (W1 : FVec Ideal S2x256 .f32) (c1 : FVec Ideal S256 .f32) (W2 : FVec Ideal S256x256 .f32) (c2 : FVec Ideal S256 .f32) (W3 : FVec Ideal S256x4 .f32) (c3 : FVec Ideal S4 .f32) (x y : FVec Ideal S524288x2 .f32) : FVec Ideal S524288x2 .f32 :=
  addf (mulf x (Host.exp (seconds (rnet W1 c1 W2 c2 W3 c3 y)))) (firsts (rnet W1 c1 W2 c2 W3 c3 y))

/-- The rows of zeros the passes start from. -/
def rzeros : FVec Ideal S524288x2 .f32 := broadcastInDim S524288x2 ![] bcast_S_S524288x2 (constant S_ .f32 0x00000000#32)

/-- One flow on all rows. -/
def rflow (W1 : FVec Ideal S2x256 .f32) (c1 : FVec Ideal S256 .f32) (W2 : FVec Ideal S256x256 .f32) (c2 : FVec Ideal S256 .f32) (W3 : FVec Ideal S256x4 .f32) (c3 : FVec Ideal S4 .f32) (x : FVec Ideal S524288x2 .f32) : FVec Ideal S524288x2 .f32 :=
  rpass W1 c1 W2 c2 W3 c3 x (rpass W1 c1 W2 c2 W3 c3 x rzeros)

/-- Slab `o` of each weight argument, its unit axis removed, masked where the layer has a mask. -/
def wt1 (o : Nat) (hs : S2x2x256.Slices ![o, 0, 0] S1x2x256) (a3 : FVec Ideal S2x2x256 .f32) : FVec Ideal S2x256 .f32 :=
  mulf (fun i => shapeCast S2x256 (extractStridedSlice S1x2x256 ![o, 0, 0] a3 hs) shapeCasts_S1x2x256_S2x256 i) mask1
def bs256 (o : Nat) (hs : S2x256.Slices ![o, 0] S1x256) (a : FVec Ideal S2x256 .f32) : FVec Ideal S256 .f32 :=
  fun i => shapeCast S256 (extractStridedSlice S1x256 ![o, 0] a hs) shapeCasts_S1x256_S256 i
def wt2 (o : Nat) (hs : S2x256x256.Slices ![o, 0, 0] S1x256x256) (a5 : FVec Ideal S2x256x256 .f32) : FVec Ideal S256x256 .f32 :=
  mulf (fun i => shapeCast S256x256 (extractStridedSlice S1x256x256 ![o, 0, 0] a5 hs) shapeCasts_S1x256x256_S256x256 i) mask2
def wt3 (o : Nat) (hs : S2x256x4.Slices ![o, 0, 0] S1x256x4) (a7 : FVec Ideal S2x256x4 .f32) : FVec Ideal S256x4 .f32 :=
  mulf (fun i => shapeCast S256x4 (extractStridedSlice S1x256x4 ![o, 0, 0] a7 hs) shapeCasts_S1x256x4_S256x4 i) mask3
def bs4 (o : Nat) (hs : S2x4.Slices ![o, 0] S1x4) (a8 : FVec Ideal S2x4 .f32) : FVec Ideal S4 .f32 :=
  fun i => shapeCast S4 (extractStridedSlice S1x4 ![o, 0] a8 hs) shapeCasts_S1x4_S4 i

/-- The program's result as a function of its nine arguments. -/
def result (a0 a1 a2 : FVec Ideal S524288x2 .f32) (a3 : FVec Ideal S2x2x256 .f32) (a4 : FVec Ideal S2x256 .f32)
    (a5 : FVec Ideal S2x256x256 .f32) (a6 : FVec Ideal S2x256 .f32) (a7 : FVec Ideal S2x256x4 .f32) (a8 : FVec Ideal S2x4 .f32) :
    FVec Ideal S524288x2 .f32 :=
  rflow (wt1 1 slices_S2x2x256_S1x2x256_1_0_0 a3) (bs256 1 slices_S2x256_S1x256_1_0 a4) (wt2 1 slices_S2x256x256_S1x256x256_1_0_0 a5)
      (bs256 1 slices_S2x256_S1x256_1_0 a6) (wt3 1 slices_S2x256x4_S1x256x4_1_0_0 a7) (bs4 1 slices_S2x4_S1x4_1_0 a8)
    (rflow (wt1 0 slices_S2x2x256_S1x2x256_0_0_0 a3) (bs256 0 slices_S2x256_S1x256_0_0 a4) (wt2 0 slices_S2x256x256_S1x256x256_0_0_0 a5)
        (bs256 0 slices_S2x256_S1x256_0_0 a6) (wt3 0 slices_S2x256x4_S1x256x4_0_0_0 a7) (bs4 0 slices_S2x4_S1x4_0_0 a8)
      (sample a0 a1 a2))

/-! ## On a row -/

/-- The weights of one flow as the rows see them. -/
def rparams (W1 : FVec Ideal S2x256 .f32) (c1 : FVec Ideal S256 .f32) (W2 : FVec Ideal S256x256 .f32) (c2 : FVec Ideal S256 .f32) (W3 : FVec Ideal S256x4 .f32) (c3 : FVec Ideal S4 .f32) : Params := ⟨row W1, vec c1, row W2, vec c2, row W3, vec c3⟩

theorem rnet_row (W1 : FVec Ideal S2x256 .f32) (c1 : FVec Ideal S256 .f32) (W2 : FVec Ideal S256x256 .f32) (c2 : FVec Ideal S256 .f32) (W3 : FVec Ideal S256x4 .f32) (c3 : FVec Ideal S4 .f32) (y : FVec Ideal S524288x2 .f32) (p : Fin 524288) :
    row (rnet W1 c1 W2 c2 W3 c3 y) p = net (rparams W1 c1 W2 c2 W3 c3) (row y p) :=
  (row_affine_host _ W3 c3 bcast_S4_S1x4_1 bcast_S1x4_S524288x4_0_1 p).trans
    (congrArg (affine (row W3) (vec c3))
      ((row_affine_host _ W2 c2 bcast_S256_S1x256_1 bcast_S1x256_S524288x256_0_1 p).trans
        (congrArg (affine (row W2) (vec c2))
          (row_affine_host y W1 c1 bcast_S256_S1x256_1 bcast_S1x256_S524288x256_0_1 p))))

/-- The first of pair `d` of a row's four outputs is output `2d`. -/
theorem firsts_apply (o : FVec Ideal S524288x4 .f32) (p : Fin 524288) (d : Fin 2) : firsts o (ix2 p d) = row o p (shI d) :=
  pair_component_apply (0 : Fin 2) o shapeCasts_S524288x4_S524288x2x2 slices_S524288x2x2_S524288x2x1_0_0_0
    shapeCasts_S524288x2x1_S524288x2 p d (shI d) (by show 2 * d.val = 2 * d.val + 0; omega)

/-- The second of pair `d` is output `2d + 1`. -/
theorem seconds_apply (o : FVec Ideal S524288x4 .f32) (p : Fin 524288) (d : Fin 2) : seconds o (ix2 p d) = row o p (lsI d) :=
  pair_component_apply (1 : Fin 2) o shapeCasts_S524288x4_S524288x2x2 slices_S524288x2x2_S524288x2x1_0_0_1
    shapeCasts_S524288x2x1_S524288x2 p d (lsI d) rfl

theorem rpass_row (W1 : FVec Ideal S2x256 .f32) (c1 : FVec Ideal S256 .f32) (W2 : FVec Ideal S256x256 .f32) (c2 : FVec Ideal S256 .f32) (W3 : FVec Ideal S256x4 .f32) (c3 : FVec Ideal S4 .f32) (x y : FVec Ideal S524288x2 .f32) (p : Fin 524288) :
    row (rpass W1 c1 W2 c2 W3 c3 x y) p = pass shI lsI (rparams W1 c1 W2 c2 W3 c3) (row x p) (row y p) := by
  funext d
  show x (ix2 p d) * Ideal.exp (seconds (rnet W1 c1 W2 c2 W3 c3 y) (ix2 p d)) + firsts (rnet W1 c1 W2 c2 W3 c3 y) (ix2 p d) = _
  rw [seconds_apply, firsts_apply, rnet_row]
  rfl

theorem rzeros_row (p : Fin 524288) : row rzeros p = zero2 := by
  funext d
  show broadcastInDim S524288x2 ![] bcast_S_S524288x2 (constant (F := Ideal) S_ .f32 0x00000000#32) (ix2 p d) = _
  rw [broadcastInDim_scalar_apply]
  rfl

theorem rflow_row (W1 : FVec Ideal S2x256 .f32) (c1 : FVec Ideal S256 .f32) (W2 : FVec Ideal S256x256 .f32) (c2 : FVec Ideal S256 .f32) (W3 : FVec Ideal S256x4 .f32) (c3 : FVec Ideal S4 .f32) (x : FVec Ideal S524288x2 .f32) (p : Fin 524288) :
    row (rflow W1 c1 W2 c2 W3 c3 x) p = flow shI lsI (rparams W1 c1 W2 c2 W3 c3) (row x p) := by
  unfold rflow flow
  rw [rpass_row, rpass_row, rzeros_row]

theorem sample_row (a0 a1 a2 : FVec Ideal S524288x2 .f32) (p : Fin 524288) :
    row (sample a0 a1 a2) p = reparam (row a0 p) (row a1 p) (row a2 p) := by
  funext d
  show a0 (ix2 p d) + Ideal.exp (broadcastInDim S524288x2 ![] bcast_S_S524288x2 (constant (F := Ideal) S_ .f32 0x3F000000#32) (ix2 p d) * a1 (ix2 p d)) * a2 (ix2 p d) = _
  rw [broadcastInDim_scalar_apply]
  rfl

/-! ## The weights, read off the arguments -/

/-- Slab `f` of a stacked matrix, its unit axis removed, at `(k, j)` is the stack at `(f, k, j)`. -/
theorem slab3_apply {A B : Nat} (f : Fin 2) (a : (⟨3, ![2, A, B]⟩ : Shape).Idx → EReal)
    (hs : (⟨3, ![2, A, B]⟩ : Shape).Slices ![f.val, 0, 0] ⟨3, ![1, A, B]⟩)
    (hc : (⟨3, ![1, A, B]⟩ : Shape).ShapeCasts ⟨2, ![A, B]⟩) (k : Fin A) (j : Fin B) :
    shapeCast ⟨2, ![A, B]⟩ (extractStridedSlice ⟨3, ![1, A, B]⟩ ![f.val, 0, 0] a hs) hc (ix2 k j) = a (ix3 f k j) := by
  rw [shapeCast_1ab_ab_apply]
  exact extractStridedSlice_apply _ a hs (ix3 (0 : Fin 1) k j) (ix3 f k j) (fun ax => by
    match ax with
    | ⟨0, _⟩ => show f.val = f.val + 0; omega
    | ⟨1, _⟩ => exact (Nat.zero_add _).symm
    | ⟨2, _⟩ => exact (Nat.zero_add _).symm)

/-- Row `f` of a stacked vector, its unit axis removed, at `j` is the stack at `(f, j)`. -/
theorem slab2_apply {B : Nat} (f : Fin 2) (a : (⟨2, ![2, B]⟩ : Shape).Idx → EReal)
    (hs : (⟨2, ![2, B]⟩ : Shape).Slices ![f.val, 0] ⟨2, ![1, B]⟩)
    (hc : (⟨2, ![1, B]⟩ : Shape).ShapeCasts ⟨1, ![B]⟩) (j : Fin B) :
    shapeCast ⟨1, ![B]⟩ (extractStridedSlice ⟨2, ![1, B]⟩ ![f.val, 0] a hs) hc (ix1 j) = a (ix2 f j) := by
  rw [shapeCast_1a_a_apply]
  exact extractStridedSlice_apply _ a hs (ix2 (0 : Fin 1) j) (ix2 f j) (fun ax => by
    match ax with
    | ⟨0, _⟩ => show f.val = f.val + 0; omega
    | ⟨1, _⟩ => exact (Nat.zero_add _).symm)

/-- Flow `f`'s masked weights as functions of their coordinates, from the arguments. -/
def refParams (f : Fin 2) (a3 : FVec Ideal S2x2x256 .f32) (a4 : FVec Ideal S2x256 .f32) (a5 : FVec Ideal S2x256x256 .f32)
    (a6 : FVec Ideal S2x256 .f32) (a7 : FVec Ideal S2x256x4 .f32) (a8 : FVec Ideal S2x4 .f32) : Params :=
  ⟨fun k j => a3 (ix3 f k j) * mask1 (ix2 k j), fun j => a4 (ix2 f j), fun k j => a5 (ix3 f k j) * mask2 (ix2 k j),
    fun j => a6 (ix2 f j), fun k q => a7 (ix3 f k q) * mask3 (ix2 k q), fun q => a8 (ix2 f q)⟩

theorem rparams_of (f : Fin 2) (a3 : FVec Ideal S2x2x256 .f32) (a4 : FVec Ideal S2x256 .f32) (a5 : FVec Ideal S2x256x256 .f32)
    (a6 : FVec Ideal S2x256 .f32) (a7 : FVec Ideal S2x256x4 .f32) (a8 : FVec Ideal S2x4 .f32)
    (h3 : S2x2x256.Slices ![f.val, 0, 0] S1x2x256) (h4 : S2x256.Slices ![f.val, 0] S1x256)
    (h5 : S2x256x256.Slices ![f.val, 0, 0] S1x256x256) (h7 : S2x256x4.Slices ![f.val, 0, 0] S1x256x4)
    (h8 : S2x4.Slices ![f.val, 0] S1x4) :
    rparams (wt1 f.val h3 a3) (bs256 f.val h4 a4) (wt2 f.val h5 a5) (bs256 f.val h4 a6) (wt3 f.val h7 a7) (bs4 f.val h8 a8)
      = refParams f a3 a4 a5 a6 a7 a8 := by
  unfold rparams refParams
  congr 1
  · funext k j
    show shapeCast S2x256 (extractStridedSlice S1x2x256 ![f.val, 0, 0] a3 h3) shapeCasts_S1x2x256_S2x256 (ix2 k j) * mask1 (ix2 k j) = _
    rw [slab3_apply]
  · funext j
    show shapeCast S256 (extractStridedSlice S1x256 ![f.val, 0] a4 h4) shapeCasts_S1x256_S256 (ix1 j) = _
    rw [slab2_apply]
  · funext k j
    show shapeCast S256x256 (extractStridedSlice S1x256x256 ![f.val, 0, 0] a5 h5) shapeCasts_S1x256x256_S256x256 (ix2 k j) * mask2 (ix2 k j) = _
    rw [slab3_apply]
  · funext j
    show shapeCast S256 (extractStridedSlice S1x256 ![f.val, 0] a6 h4) shapeCasts_S1x256_S256 (ix1 j) = _
    rw [slab2_apply]
  · funext k q
    show shapeCast S256x4 (extractStridedSlice S1x256x4 ![f.val, 0, 0] a7 h7) shapeCasts_S1x256x4_S256x4 (ix2 k q) * mask3 (ix2 k q) = _
    rw [slab3_apply]
  · funext q
    show shapeCast S4 (extractStridedSlice S1x4 ![f.val, 0] a8 h8) shapeCasts_S1x4_S4 (ix1 q) = _
    rw [slab2_apply]

/-- ROW `p` OF THE RESULT: the specification's row map over interleaved outputs, at row `p` of the sample arguments and
    the two flows' masked weights. -/
theorem result_row (a0 a1 a2 : FVec Ideal S524288x2 .f32) (a3 : FVec Ideal S2x2x256 .f32) (a4 : FVec Ideal S2x256 .f32)
    (a5 : FVec Ideal S2x256x256 .f32) (a6 : FVec Ideal S2x256 .f32) (a7 : FVec Ideal S2x256x4 .f32) (a8 : FVec Ideal S2x4 .f32)
    (p : Fin 524288) :
    row (result a0 a1 a2 a3 a4 a5 a6 a7 a8) p
      = maf shI lsI (refParams 0 a3 a4 a5 a6 a7 a8) (refParams 1 a3 a4 a5 a6 a7 a8) (row a0 p) (row a1 p) (row a2 p) := by
  unfold result
  rw [rflow_row, rflow_row, sample_row]
  have h1 : rparams (wt1 1 slices_S2x2x256_S1x2x256_1_0_0 a3) (bs256 1 slices_S2x256_S1x256_1_0 a4) (wt2 1 slices_S2x256x256_S1x256x256_1_0_0 a5)
      (bs256 1 slices_S2x256_S1x256_1_0 a6) (wt3 1 slices_S2x256x4_S1x256x4_1_0_0 a7) (bs4 1 slices_S2x4_S1x4_1_0 a8)
      = refParams 1 a3 a4 a5 a6 a7 a8 :=
    rparams_of (1 : Fin 2) a3 a4 a5 a6 a7 a8 slices_S2x2x256_S1x2x256_1_0_0 slices_S2x256_S1x256_1_0 slices_S2x256x256_S1x256x256_1_0_0
      slices_S2x256x4_S1x256x4_1_0_0 slices_S2x4_S1x4_1_0
  have h0 : rparams (wt1 0 slices_S2x2x256_S1x2x256_0_0_0 a3) (bs256 0 slices_S2x256_S1x256_0_0 a4) (wt2 0 slices_S2x256x256_S1x256x256_0_0_0 a5)
      (bs256 0 slices_S2x256_S1x256_0_0 a6) (wt3 0 slices_S2x256x4_S1x256x4_0_0_0 a7) (bs4 0 slices_S2x4_S1x4_0_0 a8)
      = refParams 0 a3 a4 a5 a6 a7 a8 :=
    rparams_of (0 : Fin 2) a3 a4 a5 a6 a7 a8 slices_S2x2x256_S1x2x256_0_0_0 slices_S2x256_S1x256_0_0 slices_S2x256x256_S1x256x256_0_0_0
      slices_S2x256x4_S1x256x4_0_0_0 slices_S2x4_S1x4_0_0
  rw [h1, h0]
  rfl

end Cert.ReferenceIdeal.RefValue

end
-- ==== Proof.RefAfter.lean ====
/-
  The reference program's run, read: after its 123 operations the result buffer holds the composed function `result`
  of the nine arguments' launch contents, and each argument, written by no operation, holds what it was launched with.
-/
import proofs.«127100_j22660247453989_1_alg».proof.Proof.RefRun
import proofs.«127100_j22660247453989_1_alg».proof.Proof.RefValue

set_option maxRecDepth 65536

noncomputable section

namespace Cert.ReferenceIdeal.RefAfter

open Cert.ReferenceIdeal Cert.ReferenceIdeal.Gen Cert.ReferenceIdeal.RefOps Cert.ReferenceIdeal.RefRun Cert.ReferenceIdeal.RefValue
open Idealize.ShloMosaic Idealize.ShloMosaic.TcCoe Idealize.SL.Sem Idealize.ShloMosaic.StableHlo

set_option maxHeartbeats 8000000 in
/-- The fold of the operations, at the result buffer, is the composed function of the arguments' contents. -/
theorem after_result (V : Valuation τ sig (Elt Ideal)) :
    after (ops (F := Ideal)) V (Proc.devRef .tc main_v116)
      = result (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8)) := by
  after_results_simp
  rfl

/-! No operation writes an argument. -/
theorem after_main_arg0 (V : Valuation τ sig (Elt Ideal)) : after (ops (F := Ideal)) V (Proc.devRef .tc main_arg0) = V (Proc.devRef .tc main_arg0) := by
  after_results_simp
theorem after_main_arg1 (V : Valuation τ sig (Elt Ideal)) : after (ops (F := Ideal)) V (Proc.devRef .tc main_arg1) = V (Proc.devRef .tc main_arg1) := by
  after_results_simp
theorem after_main_arg2 (V : Valuation τ sig (Elt Ideal)) : after (ops (F := Ideal)) V (Proc.devRef .tc main_arg2) = V (Proc.devRef .tc main_arg2) := by
  after_results_simp
theorem after_main_arg3 (V : Valuation τ sig (Elt Ideal)) : after (ops (F := Ideal)) V (Proc.devRef .tc main_arg3) = V (Proc.devRef .tc main_arg3) := by
  after_results_simp
theorem after_main_arg4 (V : Valuation τ sig (Elt Ideal)) : after (ops (F := Ideal)) V (Proc.devRef .tc main_arg4) = V (Proc.devRef .tc main_arg4) := by
  after_results_simp
theorem after_main_arg5 (V : Valuation τ sig (Elt Ideal)) : after (ops (F := Ideal)) V (Proc.devRef .tc main_arg5) = V (Proc.devRef .tc main_arg5) := by
  after_results_simp
theorem after_main_arg6 (V : Valuation τ sig (Elt Ideal)) : after (ops (F := Ideal)) V (Proc.devRef .tc main_arg6) = V (Proc.devRef .tc main_arg6) := by
  after_results_simp
theorem after_main_arg7 (V : Valuation τ sig (Elt Ideal)) : after (ops (F := Ideal)) V (Proc.devRef .tc main_arg7) = V (Proc.devRef .tc main_arg7) := by
  after_results_simp
theorem after_main_arg8 (V : Valuation τ sig (Elt Ideal)) : after (ops (F := Ideal)) V (Proc.devRef .tc main_arg8) = V (Proc.devRef .tc main_arg8) := by
  after_results_simp

/-- Every weakly fair execution of @main terminates with the result buffer at `result` of the arguments as launched and
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v116)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v116).trans (after_result _),
      (h c main_arg0).trans (after_main_arg0 _),
      (h c main_arg1).trans (after_main_arg1 _),
      (h c main_arg2).trans (after_main_arg2 _),
      (h c main_arg3).trans (after_main_arg3 _),
      (h c main_arg4).trans (after_main_arg4 _),
      (h c main_arg5).trans (after_main_arg5 _),
      (h c main_arg6).trans (after_main_arg6 _),
      (h c main_arg7).trans (after_main_arg7 _),
      (h c main_arg8).trans (after_main_arg8 _)⟩)
    (run_after m ρ)

end Cert.ReferenceIdeal.RefAfter

end
-- ==== Proof.KernelBlock.lean ====
/-
  What the kernel's body computes from the blocks it loads, one row of the block at a time.

  The body loads a block of 2048 rows of each sample array and, per flow, the flow's six weight slabs; it forms the
  sample x₀ and runs it through the two flows, every layer a matrix-unit product into a zero accumulator plus the bias
  laid along the rows, every pass x · exp(columns 2–3 of the outputs) + (columns 0–1 of the outputs). The loaded slabs
  enter through the format change and the removal of the unit flow axis. So row p of the block the body stores is the
  row map of the specification, over grouped outputs, at row p of the three sample blocks.
-/
import proofs.«127100_j22660247453989_1_alg».proof.Proof.Gen.KernelIdeal.Skeleton
import proofs.«127100_j22660247453989_1_alg».proof.Proof.MafRows
import Idealize.ShloMosaic.Lib.ValueLayout

noncomputable section

namespace Cert.KernelIdeal.Block

open Cert.KernelIdeal Cert.KernelIdeal.Gen Idealize.ShloMosaic Idealize.ShloMosaic.ValueIdx Cert.Maf

/-- The three layers on a block of rows, in the body's spelling. -/
def knet (w1 : FVec Ideal S2x256 .bf16) (b1 : FVec Ideal S256 .f32) (w2 : FVec Ideal S256x256 .bf16) (b2 : FVec Ideal S256 .f32)
    (w3 : FVec Ideal S256x4 .bf16) (b3 : FVec Ideal S4 .f32) (y : FVec Ideal S2048x2 .f32) : FVec Ideal S2048x4 .f32 :=
  addf (matmul dot_S2048x256_S256x4_S2048x4_1_0_0_1_n_n none
      (truncf .bf16 (addf (matmul dot_S2048x256_S256x256_S2048x256_1_0_0_1_n_n none
          (truncf .bf16 (addf (matmul dot_S2048x2_S2x256_S2048x256_1_0_0_1_n_n none (truncf .bf16 y bitsLt_bf16_f32) w1 (constant S2048x256 .f32 0x00000000#32))
              (broadcastTo S2048x256 (shapeCast S1x256 b1 shapeCasts_S256_S1x256) broadcasts_S1x256_S2048x256)) bitsLt_bf16_f32)
          w2 (constant S2048x256 .f32 0x00000000#32))
        (broadcastTo S2048x256 (shapeCast S1x256 b2 shapeCasts_S256_S1x256) broadcasts_S1x256_S2048x256)) bitsLt_bf16_f32)
      w3 (constant S2048x4 .f32 0x00000000#32))
    (broadcastTo S2048x4 (shapeCast S1x4 b3 shapeCasts_S4_S1x4) broadcasts_S1x4_S2048x4)

/-- One pass on a block of rows. -/
def kpass (w1 : FVec Ideal S2x256 .bf16) (b1 : FVec Ideal S256 .f32) (w2 : FVec Ideal S256x256 .bf16) (b2 : FVec Ideal S256 .f32)
    (w3 : FVec Ideal S256x4 .bf16) (b3 : FVec Ideal S4 .f32) (x y : FVec Ideal S2048x2 .f32) : FVec Ideal S2048x2 .f32 :=
  addf (mulf x (exp (extractStridedSlice S2048x2 ![0, 2] (knet w1 b1 w2 b2 w3 b3 y) slices_S2048x4_o0_2_S2048x2)))
    (extractStridedSlice S2048x2 ![0, 0] (knet w1 b1 w2 b2 w3 b3 y) slices_S2048x4_o0_0_S2048x2)

/-- The block of zeros the passes start from. -/
def kzeros : FVec Ideal S2048x2 .f32 := broadcast S2048x2 (Scalar.ofBits .f32 0x00000000#32)

/-- One flow on a block of rows. -/
def kflow (w1 : FVec Ideal S2x256 .bf16) (b1 : FVec Ideal S256 .f32) (w2 : FVec Ideal S256x256 .bf16) (b2 : FVec Ideal S256 .f32)
    (w3 : FVec Ideal S256x4 .bf16) (b3 : FVec Ideal S4 .f32) (x : FVec Ideal S2048x2 .f32) : FVec Ideal S2048x2 .f32 :=
  kpass w1 b1 w2 b2 w3 b3 x (kpass w1 b1 w2 b2 w3 b3 x kzeros)

/-- The sample on a block of rows. -/
def ksample (z0 z1 z2 : FVec Ideal S2048x2 .f32) : FVec Ideal S2048x2 .f32 :=
  addf z0 (mulf (exp (mulf (broadcast S2048x2 (Scalar.ofBits .f32 0x3F000000#32)) z1)) z2)

/-- The stored block is the sample through the two flows: the body's statements, regrouped. -/
theorem payload_eq (z0 z1 z2 : Vec Ideal S2048x2 .f32) (w1a w1b : Vec Ideal S1x2x256 .f32) (b1a b1b : Vec Ideal S1x256 .f32)
    (w2a w2b : Vec Ideal S1x256x256 .f32) (b2a b2b : Vec Ideal S1x256 .f32) (w3a w3b : Vec Ideal S1x256x4 .f32)
    (b3a b3b : Vec Ideal S1x4 .f32) :
    k0_pay1 (k0_pay10 (k0_pay2 z0 z1 z2) (k0_pay3 w1a) (k0_pay4 b1a) (k0_pay5 w2a) (k0_pay6 b2a) (k0_pay7 w3a) (k0_pay8 b3a)
        (k0_pay9 w1a b1a w2a b2a)) (k0_pay11 w1b) (k0_pay12 b1b) (k0_pay13 w2b) (k0_pay14 b2b) (k0_pay15 w3b) b3b
      = kflow (k0_pay11 w1b) (k0_pay12 b1b) (k0_pay13 w2b) (k0_pay14 b2b) (k0_pay15 w3b) (k0_pay8 b3b)
          (kflow (k0_pay3 w1a) (k0_pay4 b1a) (k0_pay5 w2a) (k0_pay6 b2a) (k0_pay7 w3a) (k0_pay8 b3a) (ksample z0 z1 z2)) := rfl

/-- The weights of one flow as the rows see them. -/
def kparams (w1 : FVec Ideal S2x256 .bf16) (b1 : FVec Ideal S256 .f32) (w2 : FVec Ideal S256x256 .bf16) (b2 : FVec Ideal S256 .f32)
    (w3 : FVec Ideal S256x4 .bf16) (b3 : FVec Ideal S4 .f32) : Params :=
  ⟨row w1, vec b1, row w2, vec b2, row w3, vec b3⟩

theorem knet_row (w1 : FVec Ideal S2x256 .bf16) (b1 : FVec Ideal S256 .f32) (w2 : FVec Ideal S256x256 .bf16) (b2 : FVec Ideal S256 .f32)
    (w3 : FVec Ideal S256x4 .bf16) (b3 : FVec Ideal S4 .f32) (y : FVec Ideal S2048x2 .f32) (p : Fin 2048) :
    row (knet w1 b1 w2 b2 w3 b3 y) p = net (kparams w1 b1 w2 b2 w3 b3) (row y p) :=
  (row_affine_kernel _ w3 b3 bitsLt_bf16_f32 shapeCasts_S4_S1x4 broadcasts_S1x4_S2048x4 p).trans
    (congrArg (affine (row w3) (vec b3))
      ((row_affine_kernel _ w2 b2 bitsLt_bf16_f32 shapeCasts_S256_S1x256 broadcasts_S1x256_S2048x256 p).trans
        (congrArg (affine (row w2) (vec b2))
          (row_affine_kernel y w1 b1 bitsLt_bf16_f32 shapeCasts_S256_S1x256 broadcasts_S1x256_S2048x256 p))))

theorem kpass_row (w1 : FVec Ideal S2x256 .bf16) (b1 : FVec Ideal S256 .f32) (w2 : FVec Ideal S256x256 .bf16) (b2 : FVec Ideal S256 .f32)
    (w3 : FVec Ideal S256x4 .bf16) (b3 : FVec Ideal S4 .f32) (x y : FVec Ideal S2048x2 .f32) (p : Fin 2048) :
    row (kpass w1 b1 w2 b2 w3 b3 x y) p = pass shG lsG (kparams w1 b1 w2 b2 w3 b3) (row x p) (row y p) := by
  refine (row_pass_grouped x (knet w1 b1 w2 b2 w3 b3 y) slices_S2048x4_o0_0_S2048x2 slices_S2048x4_o0_2_S2048x2 p).trans ?_
  rw [knet_row]
  rfl

theorem kzeros_row (p : Fin 2048) : row kzeros p = zero2 := rfl

theorem kflow_row (w1 : FVec Ideal S2x256 .bf16) (b1 : FVec Ideal S256 .f32) (w2 : FVec Ideal S256x256 .bf16) (b2 : FVec Ideal S256 .f32)
    (w3 : FVec Ideal S256x4 .bf16) (b3 : FVec Ideal S4 .f32) (x : FVec Ideal S2048x2 .f32) (p : Fin 2048) :
    row (kflow w1 b1 w2 b2 w3 b3 x) p = flow shG lsG (kparams w1 b1 w2 b2 w3 b3) (row x p) := by
  unfold kflow flow
  rw [kpass_row, kpass_row, kzeros_row]

theorem ksample_row (z0 z1 z2 : FVec Ideal S2048x2 .f32) (p : Fin 2048) :
    row (ksample z0 z1 z2) p = reparam (row z0 p) (row z1 p) (row z2 p) := rfl

/-- A loaded weight slab, after the removal of its unit flow axis and the format change, read on a row. -/
theorem pay3_row (v : Vec Ideal S1x2x256 .f32) (k : Fin 2) (j : Fin 256) : row (k0_pay3 v) k j = v (ix3 (0 : Fin 1) k j) :=
  shapeCast_1ab_ab_apply v shapeCasts_S1x2x256_S2x256 k j
theorem pay5_row (v : Vec Ideal S1x256x256 .f32) (k j : Fin 256) : row (k0_pay5 v) k j = v (ix3 (0 : Fin 1) k j) :=
  shapeCast_1ab_ab_apply v shapeCasts_S1x256x256_S256x256 k j
theorem pay7_row (v : Vec Ideal S1x256x4 .f32) (k : Fin 256) (q : Fin 4) : row (k0_pay7 v) k q = v (ix3 (0 : Fin 1) k q) :=
  shapeCast_1ab_ab_apply v shapeCasts_S1x256x4_S256x4 k q
theorem pay11_row (v : Vec Ideal S1x2x256 .f32) (k : Fin 2) (j : Fin 256) : row (k0_pay11 v) k j = v (ix3 (0 : Fin 1) k j) :=
  shapeCast_1ab_ab_apply v shapeCasts_S1x2x256_S2x256 k j
theorem pay13_row (v : Vec Ideal S1x256x256 .f32) (k j : Fin 256) : row (k0_pay13 v) k j = v (ix3 (0 : Fin 1) k j) :=
  shapeCast_1ab_ab_apply v shapeCasts_S1x256x256_S256x256 k j
theorem pay15_row (v : Vec Ideal S1x256x4 .f32) (k : Fin 256) (q : Fin 4) : row (k0_pay15 v) k q = v (ix3 (0 : Fin 1) k q) :=
  shapeCast_1ab_ab_apply v shapeCasts_S1x256x4_S256x4 k q
/-- A loaded bias row, after the removal of its unit flow axis. -/
theorem pay4_vec (v : Vec Ideal S1x256 .f32) (j : Fin 256) : vec (k0_pay4 v) j = v (ix2 (0 : Fin 1) j) :=
  shapeCast_1a_a_apply v shapeCasts_S1x256_S256 j
theorem pay6_vec (v : Vec Ideal S1x256 .f32) (j : Fin 256) : vec (k0_pay6 v) j = v (ix2 (0 : Fin 1) j) :=
  shapeCast_1a_a_apply v shapeCasts_S1x256_S256 j
theorem pay8_vec (v : Vec Ideal S1x4 .f32) (q : Fin 4) : vec (k0_pay8 v) q = v (ix2 (0 : Fin 1) q) :=
  shapeCast_1a_a_apply v shapeCasts_S1x4_S4 q
theorem pay12_vec (v : Vec Ideal S1x256 .f32) (j : Fin 256) : vec (k0_pay12 v) j = v (ix2 (0 : Fin 1) j) :=
  shapeCast_1a_a_apply v shapeCasts_S1x256_S256 j
theorem pay14_vec (v : Vec Ideal S1x256 .f32) (j : Fin 256) : vec (k0_pay14 v) j = v (ix2 (0 : Fin 1) j) :=
  shapeCast_1a_a_apply v shapeCasts_S1x256_S256 j

/-- One flow's weights as functions of their coordinates, from the six loaded slabs. -/
def slabParams (w1 : Vec Ideal S1x2x256 .f32) (b1 : Vec Ideal S1x256 .f32) (w2 : Vec Ideal S1x256x256 .f32) (b2 : Vec Ideal S1x256 .f32)
    (w3 : Vec Ideal S1x256x4 .f32) (b3 : Vec Ideal S1x4 .f32) : Params :=
  ⟨fun k j => w1 (ix3 (0 : Fin 1) k j), fun j => b1 (ix2 (0 : Fin 1) j), fun k j => w2 (ix3 (0 : Fin 1) k j),
    fun j => b2 (ix2 (0 : Fin 1) j), fun k q => w3 (ix3 (0 : Fin 1) k q), fun q => b3 (ix2 (0 : Fin 1) q)⟩

theorem kparams_a (w1 : Vec Ideal S1x2x256 .f32) (b1 : Vec Ideal S1x256 .f32) (w2 : Vec Ideal S1x256x256 .f32) (b2 : Vec Ideal S1x256 .f32)
    (w3 : Vec Ideal S1x256x4 .f32) (b3 : Vec Ideal S1x4 .f32) :
    kparams (k0_pay3 w1) (k0_pay4 b1) (k0_pay5 w2) (k0_pay6 b2) (k0_pay7 w3) (k0_pay8 b3) = slabParams w1 b1 w2 b2 w3 b3 := by
  unfold kparams slabParams
  congr 1
  · funext k j; exact pay3_row w1 k j
  · funext j; exact pay4_vec b1 j
  · funext k j; exact pay5_row w2 k j
  · funext j; exact pay6_vec b2 j
  · funext k q; exact pay7_row w3 k q
  · funext q; exact pay8_vec b3 q

theorem kparams_b (w1 : Vec Ideal S1x2x256 .f32) (b1 : Vec Ideal S1x256 .f32) (w2 : Vec Ideal S1x256x256 .f32) (b2 : Vec Ideal S1x256 .f32)
    (w3 : Vec Ideal S1x256x4 .f32) (b3 : Vec Ideal S1x4 .f32) :
    kparams (k0_pay11 w1) (k0_pay12 b1) (k0_pay13 w2) (k0_pay14 b2) (k0_pay15 w3) (k0_pay8 b3) = slabParams w1 b1 w2 b2 w3 b3 := by
  unfold kparams slabParams
  congr 1
  · funext k j; exact pay11_row w1 k j
  · funext j; exact pay12_vec b1 j
  · funext k j; exact pay13_row w2 k j
  · funext j; exact pay14_vec b2 j
  · funext k q; exact pay15_row w3 k q
  · funext q; exact pay8_vec b3 q

/-- ROW `p` OF THE STORED BLOCK: the specification's row map over grouped outputs, at row `p` of the sample blocks and
    the weights of the two flows' loaded slabs. -/
theorem payload_row (z0 z1 z2 : Vec Ideal S2048x2 .f32) (w1a w1b : Vec Ideal S1x2x256 .f32) (b1a b1b : Vec Ideal S1x256 .f32)
    (w2a w2b : Vec Ideal S1x256x256 .f32) (b2a b2b : Vec Ideal S1x256 .f32) (w3a w3b : Vec Ideal S1x256x4 .f32)
    (b3a b3b : Vec Ideal S1x4 .f32) (p : Fin 2048) :
    row (k0_pay1 (k0_pay10 (k0_pay2 z0 z1 z2) (k0_pay3 w1a) (k0_pay4 b1a) (k0_pay5 w2a) (k0_pay6 b2a) (k0_pay7 w3a) (k0_pay8 b3a)
        (k0_pay9 w1a b1a w2a b2a)) (k0_pay11 w1b) (k0_pay12 b1b) (k0_pay13 w2b) (k0_pay14 b2b) (k0_pay15 w3b) b3b) p
      = maf shG lsG (slabParams w1a b1a w2a b2a w3a b3a) (slabParams w1b b1b w2b b2b w3b b3b) (row z0 p) (row z1 p) (row z2 p) := by
  rw [payload_eq, kflow_row, kflow_row, ksample_row, kparams_a, kparams_b]
  rfl

end Cert.KernelIdeal.Block

end
-- ==== Proof.KernelArrays.lean ====
/-
  The operand arrays the kernel's program prepares before its one region, read entry by entry.

  The program multiplies each weight array by its mask (a table of zeros and ones laid along the flow axis), and
  regroups the last layer's four output columns, weights and bias alike, by the fixed order 0, 2, 1, 3: a gather at
  constant in-range indices, kept by a selection whose condition — every index in range — is true. So the region's
  operands hold, at each entry, the masked weight at the regrouped column.
-/
import proofs.«127100_j22660247453989_1_alg».proof.Proof.Gen.KernelIdeal.Frame
import proofs.«127100_j22660247453989_1_alg».proof.Proof.MafSpec
import Idealize.ShloMosaic.Lib.StableHlo.Run
import Idealize.ShloMosaic.Lib.ValueIdx
import Idealize.ShloMosaic.Lib.Pipeline.Value

noncomputable section

namespace Cert.KernelIdeal.Arrays

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The first layer's mask: the table of zeros and ones, entry by entry. -/
def mask1 : S2x256.Idx → EReal := fun i => Ideal.ofBits .f32 (lit0 (S2x256.rowMajor i))

/-- The last layer's mask. -/
def mask3 : S256x4.Idx → EReal := fun i => Ideal.ofBits .f32 (lit1 (S256x4.rowMajor i))

/-- The weight and bias arguments as launched, each at its own literal type. -/
abbrev w1arg (c : Dev nD) : S2x2x256.Idx → EReal := m ((c : Thread nD τ).loc main_arg3)
abbrev w2arg (c : Dev nD) : S2x256x256.Idx → EReal := m ((c : Thread nD τ).loc main_arg5)
abbrev w3arg (c : Dev nD) : S2x256x4.Idx → EReal := m ((c : Thread nD τ).loc main_arg7)
abbrev b3arg (c : Dev nD) : S2x4.Idx → EReal := m ((c : Thread nD τ).loc main_arg8)

/-- The four operand arrays the program computes before the region, as the region finds them. -/
abbrev w1op (c : Dev nD) : S2x2x256.Idx → EReal := V m c main_v2
abbrev w2op (c : Dev nD) : S2x256x256.Idx → EReal := V m c main_v5
abbrev w3op (c : Dev nD) : S2x256x4.Idx → EReal := V m c main_v9
abbrev b3op (c : Dev nD) : S2x4.Idx → EReal := V m c main_v10

/-! ## The regrouping's integer side

The column indices 0, 2, 1, 3 are literal words: their sign normalisation, the range test and the clamped start
index are computed outright over the four positions. -/

/-- The four column indices after the sign normalisation (a negative index moved up by four). -/
private def colIdx : IVec S4 32 :=
  select (cmpi .slt (fun i => lit2 (S4.rowMajor i)) (broadcastInDim S4 ![] bcast_S_S4 (constantI S_ 32 0#32)))
    (addi (fun i => lit2 (S4.rowMajor i)) (broadcastInDim S4 ![] bcast_S_S4 (constantI S_ 32 4#32)))
    (fun i => lit2 (S4.rowMajor i))

/-- The same indices as a column of start indices. -/
private def colIdx1 : IVec S4x1 32 := broadcastInDim S4x1 ![0] bcast_S4_S4x1_0 colIdx

/-- Per index, whether it lies in the range 0 … 3. -/
private def inRange : IVec S4 1 :=
  Host.reduce IntOp.andi
    (andi (cmpi .sge colIdx1 (broadcastInDim S4x1 ![] bcast_S_S4x1 (constantI S_ 32 0#32)))
      (cmpi .sle colIdx1 (broadcastInDim S4x1 ![0, 1] bcast_S1x1_S4x1_0_1 (broadcastInDim S1x1 ![1] bcast_S1_S1x1_1 (constantI S1 32 3#32)))))
    (constantI S_ 1 1#1) reducesTo_S4x1_S4_d1 h_S_

/-- Every index is in range. -/
private theorem inRange_eq : ∀ q : Fin 4, inRange (ix1 q) = 1#1 := by decide +kernel

/-- The start index at position `q`, read signed and clamped into the four columns, is column `perm q`. -/
private theorem colIdx1_clamp : ∀ q : Fin 4, min (colIdx1 (ix2 q 0)).toInt.toNat (4 - 1) = (Cert.Maf.perm q).val := by decide +kernel

/-! ## The two gathers along the last axis, read at an index -/

/-- The gather along the last axis of a `[2, 256, 4]` array at a column of four start indices, read at `(f, k, q)`:
    the operand at `(f, k, ·)` with the last coordinate the start index `q`, read signed and clamped into `[0, 3]`. -/
private theorem take3_apply {α : Type} {w : Nat} (x : S2x256x4.Idx → α) (idx : IVec S4x1 w) (f : Fin 2) (k : Fin 256) (q : Fin 4) :
    Host.gather gather_S2x256x4_S4x1_S2x256x4_01_2_n_n_2_1_22561 x idx (ix3 f k q)
      = x (ix3 f k ⟨min (idx (ix2 q 0)).toInt.toNat (4 - 1), by omega⟩) := by
  unfold Host.gather
  congr 1
  funext a
  refine Fin.ext ?_
  match a with
  | ⟨0, _⟩ =>
    show gather_S2x256x4_S4x1_S2x256x4_01_2_n_n_2_1_22561.start (ix3 f k q) idx 0
      + gather_S2x256x4_S4x1_S2x256x4_01_2_n_n_2_1_22561.batchCoord (ix3 f k q) 0
      + gather_S2x256x4_S4x1_S2x256x4_01_2_n_n_2_1_22561.offCoord (ix3 f k q) 0 = f.val
    rw [GatherDims.batchCoord_eq_zero _ _ _ List.not_mem_nil]
    unfold GatherDims.start
    rw [dif_neg (show ¬ (0 : Fin 3) ∈ gather_S2x256x4_S4x1_S2x256x4_01_2_n_n_2_1_22561.startIndexMap from
      fun h => absurd (congrArg Fin.val (List.mem_singleton.mp h)) (by decide))]
    simp only [Nat.add_zero, Nat.zero_add]
    rfl
  | ⟨1, _⟩ =>
    show gather_S2x256x4_S4x1_S2x256x4_01_2_n_n_2_1_22561.start (ix3 f k q) idx 1
      + gather_S2x256x4_S4x1_S2x256x4_01_2_n_n_2_1_22561.batchCoord (ix3 f k q) 1
      + gather_S2x256x4_S4x1_S2x256x4_01_2_n_n_2_1_22561.offCoord (ix3 f k q) 1 = k.val
    rw [GatherDims.batchCoord_eq_zero _ _ _ List.not_mem_nil]
    unfold GatherDims.start
    rw [dif_neg (show ¬ (1 : Fin 3) ∈ gather_S2x256x4_S4x1_S2x256x4_01_2_n_n_2_1_22561.startIndexMap from
      fun h => absurd (congrArg Fin.val (List.mem_singleton.mp h)) (by decide))]
    simp only [Nat.add_zero, Nat.zero_add]
    rfl
  | ⟨2, _⟩ =>
    show gather_S2x256x4_S4x1_S2x256x4_01_2_n_n_2_1_22561.start (ix3 f k q) idx 2
      + gather_S2x256x4_S4x1_S2x256x4_01_2_n_n_2_1_22561.batchCoord (ix3 f k q) 2
      + gather_S2x256x4_S4x1_S2x256x4_01_2_n_n_2_1_22561.offCoord (ix3 f k q) 2 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S2x256x4_S4x1_S2x256x4_01_2_n_n_2_1_22561.startIndexMap from List.mem_singleton.mpr rfl)]
    have hsi : gather_S2x256x4_S4x1_S2x256x4_01_2_n_n_2_1_22561.siIdx (ix3 f k q)
        ⟨List.idxOf (2 : Fin 3) gather_S2x256x4_S4x1_S2x256x4_01_2_n_n_2_1_22561.startIndexMap,
          List.idxOf_lt_length_iff.2 (List.mem_singleton.mpr rfl)⟩ = ix2 q 0 := by
      funext b; refine Fin.ext ?_
      match b with
      | ⟨0, _⟩ => rfl
      | ⟨1, _⟩ => rfl
    rw [hsi]
    rfl

/-- The same gather along the last axis of a `[2, 4]` array, read at `(f, q)`. -/
private theorem take2_apply {α : Type} {w : Nat} (x : S2x4.Idx → α) (idx : IVec S4x1 w) (f : Fin 2) (q : Fin 4) :
    Host.gather gather_S2x4_S4x1_S2x4_0_1_n_n_1_1_21 x idx (ix2 f q)
      = x (ix2 f ⟨min (idx (ix2 q 0)).toInt.toNat (4 - 1), by omega⟩) := by
  unfold Host.gather
  congr 1
  funext a
  refine Fin.ext ?_
  match a with
  | ⟨0, _⟩ =>
    show gather_S2x4_S4x1_S2x4_0_1_n_n_1_1_21.start (ix2 f q) idx 0
      + gather_S2x4_S4x1_S2x4_0_1_n_n_1_1_21.batchCoord (ix2 f q) 0
      + gather_S2x4_S4x1_S2x4_0_1_n_n_1_1_21.offCoord (ix2 f q) 0 = f.val
    rw [GatherDims.batchCoord_eq_zero _ _ _ List.not_mem_nil]
    unfold GatherDims.start
    rw [dif_neg (show ¬ (0 : Fin 2) ∈ gather_S2x4_S4x1_S2x4_0_1_n_n_1_1_21.startIndexMap from
      fun h => absurd (congrArg Fin.val (List.mem_singleton.mp h)) (by decide))]
    simp only [Nat.add_zero, Nat.zero_add]
    rfl
  | ⟨1, _⟩ =>
    show gather_S2x4_S4x1_S2x4_0_1_n_n_1_1_21.start (ix2 f q) idx 1
      + gather_S2x4_S4x1_S2x4_0_1_n_n_1_1_21.batchCoord (ix2 f q) 1
      + gather_S2x4_S4x1_S2x4_0_1_n_n_1_1_21.offCoord (ix2 f q) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2x4_S4x1_S2x4_0_1_n_n_1_1_21.startIndexMap from List.mem_singleton.mpr rfl)]
    have hsi : gather_S2x4_S4x1_S2x4_0_1_n_n_1_1_21.siIdx (ix2 f q)
        ⟨List.idxOf (1 : Fin 2) gather_S2x4_S4x1_S2x4_0_1_n_n_1_1_21.startIndexMap,
          List.idxOf_lt_length_iff.2 (List.mem_singleton.mpr rfl)⟩ = ix2 q 0 := by
      funext b; refine Fin.ext ?_
      match b with
      | ⟨0, _⟩ => rfl
      | ⟨1, _⟩ => rfl
    rw [hsi]
    rfl

/-! ## The four operand arrays at an entry

Each array is first equated, whole, with the composed term of the operations that produce it; the term is then
read at the entry. -/

/-- The region finds the first layer's weights masked. -/
theorem w1op_apply (c : Dev nD) (f k : Fin 2) (j : Fin 256) :
    w1op m c (ix3 f k j) = w1arg m c (ix3 f k j) * mask1 (ix2 k j) := by
  have e : w1op m c = mulf (F := Ideal) (w1arg m c) (broadcastInDim S2x2x256 ![0, 1, 2] bcast_S1x2x256_S2x2x256_0_1_2 (broadcastInDim S1x2x256 ![1, 2] bcast_S2x256_S1x2x256_1_2 (fun i => FloatOps.ofBits (F := Ideal) .f32 (lit0 (S2x256.rowMajor i))))) := by
    dsimp only [w1op, Gen.V]
    simp only [Gen.hostOps0, Gen.hostOps0_1, Gen.hostOps0_2, List.flatten_cons, List.flatten_nil, List.append_nil, List.cons_append, List.nil_append]
    open Idealize.ShloMosaic.StableHlo in after_results
    rfl
  rw [e, mulf_apply]
  rw [broadcastInDim_apply ![0, 1, 2] _ _ (ix3 f k j) (ix3 (0 : Fin 1) k j) (by intro a; fin_cases a <;> rfl),
    broadcastInDim_apply ![1, 2] _ _ (ix3 (0 : Fin 1) k j) (ix2 k j) (by intro a; fin_cases a <;> rfl)]
  rfl

/-- The region finds the second layer's weights times the all-ones mask. -/
theorem w2op_apply (c : Dev nD) (f : Fin 2) (k j : Fin 256) :
    w2op m c (ix3 f k j) = w2arg m c (ix3 f k j) * Ideal.ofBits .f32 0x3F800000#32 := by
  have e : w2op m c = mulf (F := Ideal) (w2arg m c) (broadcastInDim S2x256x256 ![0, 1, 2] bcast_S1x256x256_S2x256x256_0_1_2 (broadcastInDim S1x256x256 ![1, 2] bcast_S256x256_S1x256x256_1_2 (constant (F := Ideal) S256x256 .f32 0x3F800000#32))) := by
    dsimp only [w2op, Gen.V]
    simp only [Gen.hostOps0, Gen.hostOps0_1, Gen.hostOps0_2, List.flatten_cons, List.flatten_nil, List.append_nil, List.cons_append, List.nil_append]
    open Idealize.ShloMosaic.StableHlo in after_results
  rw [e, mulf_apply]
  rw [broadcastInDim_apply ![0, 1, 2] _ _ (ix3 f k j) (ix3 (0 : Fin 1) k j) (by intro a; fin_cases a <;> rfl),
    broadcastInDim_apply ![1, 2] _ _ (ix3 (0 : Fin 1) k j) (ix2 k j) (by intro a; fin_cases a <;> rfl)]
  rfl

/-- The region finds the last layer's weights masked and with their output columns regrouped. -/
theorem w3op_apply (c : Dev nD) (f : Fin 2) (k : Fin 256) (q : Fin 4) :
    w3op m c (ix3 f k q) = w3arg m c (ix3 f k (Cert.Maf.perm q)) * mask3 (ix2 k (Cert.Maf.perm q)) := by
  have e : w3op m c
      = select (broadcastInDim S2x256x4 ![2] bcast_S4_S2x256x4_2 inRange)
          (Host.gather gather_S2x256x4_S4x1_S2x256x4_01_2_n_n_2_1_22561
            (mulf (F := Ideal) (w3arg m c)
              (broadcastInDim S2x256x4 ![0, 1, 2] bcast_S1x256x4_S2x256x4_0_1_2
                (broadcastInDim S1x256x4 ![1, 2] bcast_S256x4_S1x256x4_1_2
                  (fun i => FloatOps.ofBits (F := Ideal) .f32 (lit1 (S256x4.rowMajor i))))))
            colIdx1)
          (broadcastInDim S2x256x4 ![] bcast_S_S2x256x4 (constant (F := Ideal) S_ .f32 0x7FC00000#32)) := by
    dsimp only [w3op, Gen.V]
    simp only [Gen.hostOps0, Gen.hostOps0_1, Gen.hostOps0_2, List.flatten_cons, List.flatten_nil, List.append_nil, List.cons_append, List.nil_append]
    open Idealize.ShloMosaic.StableHlo in after_results_simp
    simp only [cast_cast, cast_eq]
    rfl
  have hq : (⟨min (colIdx1 (ix2 q 0)).toInt.toNat (4 - 1), by omega⟩ : Fin 4) = Cert.Maf.perm q := Fin.ext (colIdx1_clamp q)
  rw [e, select_apply,
    broadcastInDim_apply ![2] _ _ (ix3 f k q) (ix1 q) (by intro a; fin_cases a; rfl),
    inRange_eq q, select_one, take3_apply, hq, mulf_apply,
    broadcastInDim_apply ![0, 1, 2] _ _ (ix3 f k (Cert.Maf.perm q)) (ix3 (0 : Fin 1) k (Cert.Maf.perm q)) (by intro a; fin_cases a <;> rfl),
    broadcastInDim_apply ![1, 2] _ _ (ix3 (0 : Fin 1) k (Cert.Maf.perm q)) (ix2 k (Cert.Maf.perm q)) (by intro a; fin_cases a <;> rfl)]
  rfl

/-- The region finds the last layer's bias with its entries regrouped. -/
theorem b3op_apply (c : Dev nD) (f : Fin 2) (q : Fin 4) :
    b3op m c (ix2 f q) = b3arg m c (ix2 f (Cert.Maf.perm q)) := by
  have e : b3op m c
      = select (broadcastInDim S2x4 ![1] bcast_S4_S2x4_1 inRange)
          (Host.gather gather_S2x4_S4x1_S2x4_0_1_n_n_1_1_21 (b3arg m c) colIdx1)
          (broadcastInDim S2x4 ![] bcast_S_S2x4 (constant (F := Ideal) S_ .f32 0x7FC00000#32)) := by
    dsimp only [b3op, Gen.V]
    simp only [Gen.hostOps0, Gen.hostOps0_1, Gen.hostOps0_2, List.flatten_cons, List.flatten_nil, List.append_nil, List.cons_append, List.nil_append]
    open Idealize.ShloMosaic.StableHlo in after_results_simp
    simp only [cast_cast, cast_eq]
    rfl
  have hq : (⟨min (colIdx1 (ix2 q 0)).toInt.toNat (4 - 1), by omega⟩ : Fin 4) = Cert.Maf.perm q := Fin.ext (colIdx1_clamp q)
  rw [e, select_apply,
    broadcastInDim_apply ![1] _ _ (ix2 f q) (ix1 q) (by intro a; fin_cases a; rfl),
    inRange_eq q, select_one, take2_apply, hq]

end Cert.KernelIdeal.Arrays

end
-- ==== Proof.KernelFinal.lean ====
/-
  The kernel's result array, whole.

  The region walks 256 grid points; point t stages rows 2048·t … 2048·t + 2047 of the three sample arrays, the whole of
  the six weight operands (their block never moves), runs the body, and writes the body's block back to the same rows
  of the result. A row of the stored block depends only on the same row of the sample blocks, so the block written at
  point t is rows 2048·t … of ONE array G: row r of G is the specification's row map at row r of the samples. The 256
  blocks tile the 524288 rows, so after the region the result array is G.
-/
import proofs.«127100_j22660247453989_1_alg».proof.Proof.Gen.KernelIdeal.Value
import proofs.«127100_j22660247453989_1_alg».proof.Proof.KernelBlock
import proofs.«127100_j22660247453989_1_alg».proof.Proof.KernelArrays

set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.Maf Cert.KernelIdeal.Block Cert.KernelIdeal.Arrays

variable (m : (ℓ : Loc nD τ sig) → Buf (Elt Ideal) ℓ) (ρ : Dev nD → PrngReg)

/-! ## The arrays the region finds, and the function of them the result ends at -/

abbrev zmArr (c : Dev nD) : S524288x2.Idx → EReal := V m c main_arg0
abbrev zlArr (c : Dev nD) : S524288x2.Idx → EReal := V m c main_arg1
abbrev epArr (c : Dev nD) : S524288x2.Idx → EReal := V m c main_arg2
abbrev b1Arr (c : Dev nD) : S2x256.Idx → EReal := V m c main_arg4
abbrev b2Arr (c : Dev nD) : S2x256.Idx → EReal := V m c main_arg6

/-- Flow `f`'s weights as the region finds them. -/
def opParams (c : Dev nD) (f : Fin 2) : Params :=
  ⟨fun k j => w1op m c (ix3 f k j), fun j => b1Arr m c (ix2 f j), fun k j => w2op m c (ix3 f k j),
    fun j => b2Arr m c (ix2 f j), fun k q => w3op m c (ix3 f k q), fun q => b3op m c (ix2 f q)⟩

/-- Row `r` of the result. -/
def Grow (c : Dev nD) (r : Fin 524288) : Fin 2 → EReal :=
  maf shG lsG (opParams m c 0) (opParams m c 1) (row (zmArr m c) r) (row (zlArr m c) r) (row (epArr m c) r)

/-- The result array. -/
def G (c : Dev nD) : S524288x2.Idx → EReal := fun i => Grow m c (i 0) (i 1)

theorem G_apply (c : Dev nD) (r : Fin 524288) (d : Fin 2) : G m c (ix2 r d) = Grow m c r d := rfl

/-! ## The blocks at a point -/

theorem hz2 : (![0, 0] : Fin 2 → Nat) = fun _ => 0 := funext fun a => by fin_cases a <;> rfl

/-- The printed index maps over the 256 points: the sample windows and the result window move one block of rows per
    point; the weight windows stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 3) = 0 ∧ win0_7.index t (1 : Fin 3) = 0 ∧ win0_7.index t (2 : Fin 3) = 0
    ∧ win0_8.index t (0 : Fin 2) = 0 ∧ win0_8.index t (1 : Fin 2) = 0 :=
  (by decide +kernel : ∀ t : Fin grid0.N, _)

/-- The row of the arrays that row `p` of point `t`'s block is. -/
def rowAt (t : Fin cfg0.N) (p : Fin 2048) : Fin 524288 :=
  ⟨t.val * 2048 + p.val, by have h : t.val < 256 := t.isLt; have := p.isLt; omega⟩

/-- Each window's block at a point, at its literal type. -/
abbrev blk0 (c : Dev nD) (t : Fin cfg0.N) : Vec Ideal S2048x2 .f32 := iblk m c 0 t
abbrev blk1 (c : Dev nD) (t : Fin cfg0.N) : Vec Ideal S2048x2 .f32 := iblk m c 1 t
abbrev blk2 (c : Dev nD) (t : Fin cfg0.N) : Vec Ideal S2048x2 .f32 := iblk m c 2 t
abbrev blk3 (c : Dev nD) (t : Fin cfg0.N) : Vec Ideal S2x2x256 .f32 := iblk m c 3 t
abbrev blk4 (c : Dev nD) (t : Fin cfg0.N) : Vec Ideal S2x256 .f32 := iblk m c 4 t
abbrev blk5 (c : Dev nD) (t : Fin cfg0.N) : Vec Ideal S2x256x256 .f32 := iblk m c 5 t
abbrev blk6 (c : Dev nD) (t : Fin cfg0.N) : Vec Ideal S2x256 .f32 := iblk m c 6 t
abbrev blk7 (c : Dev nD) (t : Fin cfg0.N) : Vec Ideal S2x256x4 .f32 := iblk m c 7 t
abbrev blk8 (c : Dev nD) (t : Fin cfg0.N) : Vec Ideal S2x4 .f32 := iblk m c 8 t

/-- A sample block's entry `(p, d)` at point `t` is the array's entry at row `2048·t + p`. -/
theorem blk0_apply (c : Dev nD) (t : Fin cfg0.N) (p : Fin 2048) (d : Fin 2) :
    blk0 m c t (ix2 p d) = zmArr m c (ix2 (rowAt t p) d) := by
  obtain ⟨e0, e1, -⟩ := idx_facts t
  show V m c main_arg0 (((cfg0.win 0).blk t).view.emb (ix2 p d)) = V m c main_arg0 (ix2 (rowAt t p) d)
  refine congrArg _ (funext fun a => Fin.ext ?_)
  match a with
  | ⟨0, _⟩ => show win0_0.index t (0 : Fin 2) * 2048 + 1 * p.val = t.val * 2048 + p.val; rw [e0]; omega
  | ⟨1, _⟩ => show win0_0.index t (1 : Fin 2) * 2 + 1 * d.val = d.val; rw [e1]; omega

theorem blk1_apply (c : Dev nD) (t : Fin cfg0.N) (p : Fin 2048) (d : Fin 2) :
    blk1 m c t (ix2 p d) = zlArr m c (ix2 (rowAt t p) d) := by
  obtain ⟨-, -, e0, e1, -⟩ := idx_facts t
  show V m c main_arg1 (((cfg0.win 1).blk t).view.emb (ix2 p d)) = V m c main_arg1 (ix2 (rowAt t p) d)
  refine congrArg _ (funext fun a => Fin.ext ?_)
  match a with
  | ⟨0, _⟩ => show win0_1.index t (0 : Fin 2) * 2048 + 1 * p.val = t.val * 2048 + p.val; rw [e0]; omega
  | ⟨1, _⟩ => show win0_1.index t (1 : Fin 2) * 2 + 1 * d.val = d.val; rw [e1]; omega

theorem blk2_apply (c : Dev nD) (t : Fin cfg0.N) (p : Fin 2048) (d : Fin 2) :
    blk2 m c t (ix2 p d) = epArr m c (ix2 (rowAt t p) d) := by
  obtain ⟨-, -, -, -, e0, e1, -⟩ := idx_facts t
  show V m c main_arg2 (((cfg0.win 2).blk t).view.emb (ix2 p d)) = V m c main_arg2 (ix2 (rowAt t p) d)
  refine congrArg _ (funext fun a => Fin.ext ?_)
  match a with
  | ⟨0, _⟩ => show win0_2.index t (0 : Fin 2) * 2048 + 1 * p.val = t.val * 2048 + p.val; rw [e0]; omega
  | ⟨1, _⟩ => show win0_2.index t (1 : Fin 2) * 2 + 1 * d.val = d.val; rw [e1]; omega

/-- A weight window's block is its whole array, at every point. -/
theorem blk3_apply (c : Dev nD) (t : Fin cfg0.N) (f k : Fin 2) (j : Fin 256) : blk3 m c t (ix3 f k j) = w1op m c (ix3 f k j) := by
  obtain ⟨-, -, -, -, -, -, -, -, e0, e1, e2, -⟩ := idx_facts t
  show V m c main_v2 (((cfg0.win 3).blk t).view.emb (ix3 f k j)) = V m c main_v2 (ix3 f k j)
  refine congrArg _ (funext fun a => Fin.ext ?_)
  match a with
  | ⟨0, _⟩ => show win0_3.index t (0 : Fin 3) * 2 + 1 * f.val = f.val; rw [e0]; omega
  | ⟨1, _⟩ => show win0_3.index t (1 : Fin 3) * 2 + 1 * k.val = k.val; rw [e1]; omega
  | ⟨2, _⟩ => show win0_3.index t (2 : Fin 3) * 256 + 1 * j.val = j.val; rw [e2]; omega

theorem blk4_apply (c : Dev nD) (t : Fin cfg0.N) (f : Fin 2) (j : Fin 256) : blk4 m c t (ix2 f j) = b1Arr m c (ix2 f j) := by
  obtain ⟨-, -, -, -, -, -, -, -, -, -, -, e0, e1, -⟩ := idx_facts t
  show V m c main_arg4 (((cfg0.win 4).blk t).view.emb (ix2 f j)) = V m c main_arg4 (ix2 f j)
  refine congrArg _ (funext fun a => Fin.ext ?_)
  match a with
  | ⟨0, _⟩ => show win0_4.index t (0 : Fin 2) * 2 + 1 * f.val = f.val; rw [e0]; omega
  | ⟨1, _⟩ => show win0_4.index t (1 : Fin 2) * 256 + 1 * j.val = j.val; rw [e1]; omega

theorem blk5_apply (c : Dev nD) (t : Fin cfg0.N) (f : Fin 2) (k j : Fin 256) : blk5 m c t (ix3 f k j) = w2op m c (ix3 f k j) := by
  obtain ⟨-, -, -, -, -, -, -, -, -, -, -, -, -, e0, e1, e2, -⟩ := idx_facts t
  show V m c main_v5 (((cfg0.win 5).blk t).view.emb (ix3 f k j)) = V m c main_v5 (ix3 f k j)
  refine congrArg _ (funext fun a => Fin.ext ?_)
  match a with
  | ⟨0, _⟩ => show win0_5.index t (0 : Fin 3) * 2 + 1 * f.val = f.val; rw [e0]; omega
  | ⟨1, _⟩ => show win0_5.index t (1 : Fin 3) * 256 + 1 * k.val = k.val; rw [e1]; omega
  | ⟨2, _⟩ => show win0_5.index t (2 : Fin 3) * 256 + 1 * j.val = j.val; rw [e2]; omega

theorem blk6_apply (c : Dev nD) (t : Fin cfg0.N) (f : Fin 2) (j : Fin 256) : blk6 m c t (ix2 f j) = b2Arr m c (ix2 f j) := by
  obtain ⟨-, -, -, -, -, -, -, -, -, -, -, -, -, -, -, -, e0, e1, -⟩ := idx_facts t
  show V m c main_arg6 (((cfg0.win 6).blk t).view.emb (ix2 f j)) = V m c main_arg6 (ix2 f j)
  refine congrArg _ (funext fun a => Fin.ext ?_)
  match a with
  | ⟨0, _⟩ => show win0_6.index t (0 : Fin 2) * 2 + 1 * f.val = f.val; rw [e0]; omega
  | ⟨1, _⟩ => show win0_6.index t (1 : Fin 2) * 256 + 1 * j.val = j.val; rw [e1]; omega

theorem blk7_apply (c : Dev nD) (t : Fin cfg0.N) (f : Fin 2) (k : Fin 256) (q : Fin 4) : blk7 m c t (ix3 f k q) = w3op m c (ix3 f k q) := by
  obtain ⟨-, -, -, -, -, -, -, -, -, -, -, -, -, -, -, -, -, -, e0, e1, e2, -⟩ := idx_facts t
  show V m c main_v9 (((cfg0.win 7).blk t).view.emb (ix3 f k q)) = V m c main_v9 (ix3 f k q)
  refine congrArg _ (funext fun a => Fin.ext ?_)
  match a with
  | ⟨0, _⟩ => show win0_7.index t (0 : Fin 3) * 2 + 1 * f.val = f.val; rw [e0]; omega
  | ⟨1, _⟩ => show win0_7.index t (1 : Fin 3) * 256 + 1 * k.val = k.val; rw [e1]; omega
  | ⟨2, _⟩ => show win0_7.index t (2 : Fin 3) * 4 + 1 * q.val = q.val; rw [e2]; omega

theorem blk8_apply (c : Dev nD) (t : Fin cfg0.N) (f : Fin 2) (q : Fin 4) : blk8 m c t (ix2 f q) = b3op m c (ix2 f q) := by
  obtain ⟨-, -, -, -, -, -, -, -, -, -, -, -, -, -, -, -, -, -, -, -, -, e0, e1⟩ := idx_facts t
  show V m c main_v10 (((cfg0.win 8).blk t).view.emb (ix2 f q)) = V m c main_v10 (ix2 f q)
  refine congrArg _ (funext fun a => Fin.ext ?_)
  match a with
  | ⟨0, _⟩ => show win0_8.index t (0 : Fin 2) * 2 + 1 * f.val = f.val; rw [e0]; omega
  | ⟨1, _⟩ => show win0_8.index t (1 : Fin 2) * 4 + 1 * q.val = q.val; rw [e1]; omega

/-! ## The slab loads -/

/-- Loading slab `f` of a stacked weight block reads the block at flow coordinate `f`. -/
theorem ld_w1_0 (x : Vec Ideal S2x2x256 .f32) (k : Fin 2) (j : Fin 256) : View.ld x r0_1 (ix3 (0 : Fin 1) k j) = x (ix3 (0 : Fin 2) k j) :=
  congrArg x (funext fun a => Fin.ext (by match a with | ⟨0, _⟩ => rfl | ⟨1, _⟩ => show 0 + 1 * k.val = k.val; omega | ⟨2, _⟩ => show 0 + 1 * j.val = j.val; omega))
theorem ld_w1_1 (x : Vec Ideal S2x2x256 .f32) (k : Fin 2) (j : Fin 256) : View.ld x r0_6 (ix3 (0 : Fin 1) k j) = x (ix3 (1 : Fin 2) k j) :=
  congrArg x (funext fun a => Fin.ext (by match a with | ⟨0, _⟩ => rfl | ⟨1, _⟩ => show 0 + 1 * k.val = k.val; omega | ⟨2, _⟩ => show 0 + 1 * j.val = j.val; omega))
theorem ld_b_0 (x : Vec Ideal S2x256 .f32) (j : Fin 256) : View.ld x r0_2 (ix2 (0 : Fin 1) j) = x (ix2 (0 : Fin 2) j) :=
  congrArg x (funext fun a => Fin.ext (by match a with | ⟨0, _⟩ => rfl | ⟨1, _⟩ => show 0 + 1 * j.val = j.val; omega))
theorem ld_b_1 (x : Vec Ideal S2x256 .f32) (j : Fin 256) : View.ld x r0_7 (ix2 (0 : Fin 1) j) = x (ix2 (1 : Fin 2) j) :=
  congrArg x (funext fun a => Fin.ext (by match a with | ⟨0, _⟩ => rfl | ⟨1, _⟩ => show 0 + 1 * j.val = j.val; omega))
theorem ld_w2_0 (x : Vec Ideal S2x256x256 .f32) (k j : Fin 256) : View.ld x r0_3 (ix3 (0 : Fin 1) k j) = x (ix3 (0 : Fin 2) k j) :=
  congrArg x (funext fun a => Fin.ext (by match a with | ⟨0, _⟩ => rfl | ⟨1, _⟩ => show 0 + 1 * k.val = k.val; omega | ⟨2, _⟩ => show 0 + 1 * j.val = j.val; omega))
theorem ld_w2_1 (x : Vec Ideal S2x256x256 .f32) (k j : Fin 256) : View.ld x r0_8 (ix3 (0 : Fin 1) k j) = x (ix3 (1 : Fin 2) k j) :=
  congrArg x (funext fun a => Fin.ext (by match a with | ⟨0, _⟩ => rfl | ⟨1, _⟩ => show 0 + 1 * k.val = k.val; omega | ⟨2, _⟩ => show 0 + 1 * j.val = j.val; omega))
theorem ld_w3_0 (x : Vec Ideal S2x256x4 .f32) (k : Fin 256) (q : Fin 4) : View.ld x r0_4 (ix3 (0 : Fin 1) k q) = x (ix3 (0 : Fin 2) k q) :=
  congrArg x (funext fun a => Fin.ext (by match a with | ⟨0, _⟩ => rfl | ⟨1, _⟩ => show 0 + 1 * k.val = k.val; omega | ⟨2, _⟩ => show 0 + 1 * q.val = q.val; omega))
theorem ld_w3_1 (x : Vec Ideal S2x256x4 .f32) (k : Fin 256) (q : Fin 4) : View.ld x r0_9 (ix3 (0 : Fin 1) k q) = x (ix3 (1 : Fin 2) k q) :=
  congrArg x (funext fun a => Fin.ext (by match a with | ⟨0, _⟩ => rfl | ⟨1, _⟩ => show 0 + 1 * k.val = k.val; omega | ⟨2, _⟩ => show 0 + 1 * q.val = q.val; omega))
theorem ld_b3_0 (x : Vec Ideal S2x4 .f32) (q : Fin 4) : View.ld x r0_5 (ix2 (0 : Fin 1) q) = x (ix2 (0 : Fin 2) q) :=
  congrArg x (funext fun a => Fin.ext (by match a with | ⟨0, _⟩ => rfl | ⟨1, _⟩ => show 0 + 1 * q.val = q.val; omega))
theorem ld_b3_1 (x : Vec Ideal S2x4 .f32) (q : Fin 4) : View.ld x r0_10 (ix2 (0 : Fin 1) q) = x (ix2 (1 : Fin 2) q) :=
  congrArg x (funext fun a => Fin.ext (by match a with | ⟨0, _⟩ => rfl | ⟨1, _⟩ => show 0 + 1 * q.val = q.val; omega))

/-- The slabs the body loads for flow 0 at any point carry flow 0's weights as the region finds them. -/
theorem slab0 (c : Dev nD) (t : Fin cfg0.N) :
    slabParams (View.ld (blk3 m c t) r0_1) (View.ld (blk4 m c t) r0_2) (View.ld (blk5 m c t) r0_3) (View.ld (blk6 m c t) r0_2)
      (View.ld (blk7 m c t) r0_4) (View.ld (blk8 m c t) r0_5) = opParams m c 0 := by
  unfold slabParams opParams
  congr 1
  · funext k j; rw [ld_w1_0, blk3_apply]
  · funext j; rw [ld_b_0, blk4_apply]
  · funext k j; rw [ld_w2_0, blk5_apply]
  · funext j; rw [ld_b_0, blk6_apply]
  · funext k q; rw [ld_w3_0, blk7_apply]
  · funext q; rw [ld_b3_0, blk8_apply]

/-- And those for flow 1, flow 1's. -/
theorem slab1 (c : Dev nD) (t : Fin cfg0.N) :
    slabParams (View.ld (blk3 m c t) r0_6) (View.ld (blk4 m c t) r0_7) (View.ld (blk5 m c t) r0_8) (View.ld (blk6 m c t) r0_7)
      (View.ld (blk7 m c t) r0_9) (View.ld (blk8 m c t) r0_10) = opParams m c 1 := by
  unfold slabParams opParams
  congr 1
  · funext k j; rw [ld_w1_1, blk3_apply]
  · funext j; rw [ld_b_1, blk4_apply]
  · funext k j; rw [ld_w2_1, blk5_apply]
  · funext j; rw [ld_b_1, blk6_apply]
  · funext k q; rw [ld_w3_1, blk7_apply]
  · funext q; rw [ld_b3_1, blk8_apply]

/-! ## What a point writes back, the cover, and the array -/

/-- WHAT POINT `t` WRITES BACK is block `t` of `G`. -/
theorem flushed_eq (c : Dev nD) (t : Fin cfg0.N) :
    (dats m 0 c).flushed 9 t = ((cfg0.win 9).blk t).view.read (Elt Ideal) (G m c) := by
  rw [Value.flushed9]
  unfold out0_9
  rw [View.canon_unit_zero hz2]
  simp only [View.ld_unit_zero (S := S2048x2) hz2]
  funext y
  obtain ⟨p, d, rfl⟩ : ∃ (p : Fin 2048) (d : Fin 2), y = ix2 p d := ⟨y 0, y 1, eq_ix2 y⟩
  -- the index of the array that entry (p, d) of the block is
  have hemb : ((cfg0.win 9).blk t).view.emb (ix2 p d) = ix2 (rowAt t p) d := by
    obtain ⟨-, -, -, -, -, -, e0, e1, -⟩ := idx_facts t
    funext a
    refine Fin.ext ?_
    match a with
    | ⟨0, _⟩ => show win0_9.index t (0 : Fin 2) * 2048 + 1 * p.val = t.val * 2048 + p.val; rw [e0]; omega
    | ⟨1, _⟩ => show win0_9.index t (1 : Fin 2) * 2 + 1 * d.val = d.val; rw [e1]; omega
  show _ = G m c (((cfg0.win 9).blk t).view.emb (ix2 p d))
  rw [hemb, G_apply]
  -- row p of the stored block is the row map at row p of the sample blocks and the loaded slabs' weights
  refine (congrFun (payload_row (blk0 m c t) (blk1 m c t) (blk2 m c t) (View.ld (blk3 m c t) r0_1) (View.ld (blk3 m c t) r0_6)
    (View.ld (blk4 m c t) r0_2) (View.ld (blk4 m c t) r0_7) (View.ld (blk5 m c t) r0_3) (View.ld (blk5 m c t) r0_8)
    (View.ld (blk6 m c t) r0_2) (View.ld (blk6 m c t) r0_7) (View.ld (blk7 m c t) r0_4) (View.ld (blk7 m c t) r0_9)
    (View.ld (blk8 m c t) r0_5) (View.ld (blk8 m c t) r0_10) p) d).trans ?_
  rw [slab0, slab1]
  have r0 : row (blk0 m c t) p = row (zmArr m c) (rowAt t p) := funext fun d => blk0_apply m c t p d
  have r1 : row (blk1 m c t) p = row (zlArr m c) (rowAt t p) := funext fun d => blk1_apply m c t p d
  have r2 : row (blk2 m c t) p = row (epArr m c) (rowAt t p) := funext fun d => blk2_apply m c t p d
  rw [r0, r1, r2]
  rfl

/-- An index of the result array is in point `t`'s block iff each coordinate is in the block's range. -/
theorem mem_blk (t : Fin cfg0.N) (i : S524288x2.Idx) :
    i ∈ ((cfg0.win 9).blk t).view.set ↔ ∀ a : Fin 2, win0_9.index t a * S2048x2.size a ≤ (i a).val ∧ (i a).val < win0_9.index t a * S2048x2.size a + S2048x2.size a := by
  show i ∈ ((View.whole main_v11).slice (win0_9.rect t)).set ↔ _
  rw [View.set_slice_whole, Rect.mem_set_unit]
  exact Iff.rfl

/-- Every row is in the block of the point `row / 2048`. -/
theorem cover (i : S524288x2.Idx) : ∃ t : Fin cfg0.N, (cfg0.win 9).flush t = true ∧ i ∈ ((cfg0.win 9).blk t).view.set := by
  have hi0 : (i 0).val < 524288 := (i 0).isLt
  have hi1 : (i 1).val < 2 := (i 1).isLt
  have hN : cfg0.N = 256 := N_0
  let t : Fin cfg0.N := ⟨(i 0).val / 2048, by rw [hN]; omega⟩
  refine ⟨t, flush0_9 t, ?_⟩
  rw [mem_blk]
  obtain ⟨-, -, -, -, -, -, e0, e1, -⟩ := idx_facts t
  have ht : t.val = (i 0).val / 2048 := rfl
  intro a
  match a with
  | ⟨0, _⟩ => show win0_9.index t (0 : Fin 2) * 2048 ≤ (i 0).val ∧ (i 0).val < win0_9.index t (0 : Fin 2) * 2048 + 2048; rw [e0, ht]; omega
  | ⟨1, _⟩ => show win0_9.index t (1 : Fin 2) * 2 ≤ (i 1).val ∧ (i 1).val < win0_9.index t (1 : Fin 2) * 2 + 2; rw [e1]; omega

/-- THE ARRAY after the run is `G`. -/
theorem final (c : Dev nD) : (dats m 0 c).arrAt 9 cfg0.N = G m c :=
  (dats m 0 c).arrAt_eq_of_cover 9 (G m c) (fun t _ => flushed_eq m c t) cover

/-- The frame run re-posted: the result array at `G`, the arguments unchanged. -/
theorem run : θ_run defs (onTc (τ := τ) (main (F := Ideal))) ⟨m, fun _ => 0, ρ⟩ fun r => ∀ c : Dev nD,
      r.2.mem ((c : Thread nD τ).loc main_v11) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Final

end
-- ==== Proof.Bridge.lean ====
/-
  The two programs compute one array.

  Each program carries its own copy of the two mask tables; the copies hold the same words. The operands the kernel's
  program prepares are therefore the reference's masked weights with the last layer's four outputs regrouped, and the
  kernel reads the regrouped outputs grouped (shifts first) where the reference reads them interleaved: the same two
  shifts and the same two log-scales. So on every row the two row maps agree, and the kernel's result array is the
  reference's result.
-/
import proofs.«127100_j22660247453989_1_alg».proof.Proof.KernelFinal
import proofs.«127100_j22660247453989_1_alg».proof.Proof.RefValue

noncomputable section

namespace Cert.Bridge

open Idealize.ShloMosaic Idealize.ShloMosaic.TcCoe Idealize.SL.Sem Idealize.ShloMosaic.ValueIdx Cert.Maf

/-- The first layer's mask table is the same in both programs, word by word. -/
theorem lit0_eq : ∀ n : Fin 512, Cert.KernelIdeal.lit0 n = Cert.ReferenceIdeal.lit0 n := by decide +kernel

/-- The last layer's mask table likewise. -/
theorem lit1_eq : ∀ n : Fin 1024, Cert.KernelIdeal.lit1 n = Cert.ReferenceIdeal.lit1 n := by decide +kernel

theorem mask1_eq : Cert.KernelIdeal.Arrays.mask1 = Cert.ReferenceIdeal.RefValue.mask1 :=
  funext fun i => congrArg (Ideal.ofBits .f32) (lit0_eq _)

theorem mask3_eq : Cert.KernelIdeal.Arrays.mask3 = Cert.ReferenceIdeal.RefValue.mask3 :=
  funext fun i => congrArg (Ideal.ofBits .f32) (lit1_eq _)

/-- Two weight records with the same six fields are the same. -/
theorem params_ext {P Q : Params} (h1 : P.W1 = Q.W1) (h2 : P.b1 = Q.b1) (h3 : P.W2 = Q.W2) (h4 : P.b2 = Q.b2)
    (h5 : P.W3 = Q.W3) (h6 : P.b3 = Q.b3) : P = Q := by
  cases P; cases Q; cases h1; cases h2; cases h3; cases h4; cases h5; cases h6; rfl

open Cert.KernelIdeal in
/-- Flow `f`'s masked weights, the last layer's outputs regrouped, written over the kernel's launch arguments. -/
def mid (m : (ℓ : Loc Cert.KernelIdeal.nD Cert.KernelIdeal.τ Cert.KernelIdeal.sig) → Buf (Elt Ideal) ℓ)
    (c : Dev Cert.KernelIdeal.nD) (f : Fin 2) : Params :=
  ⟨fun k j => Cert.KernelIdeal.Arrays.w1arg m c (ix3 f k j) * Cert.ReferenceIdeal.RefValue.mask1 (ix2 k j),
    fun j => (m ((c : Thread nD τ).loc main_arg4) : S2x256.Idx → EReal) (ix2 f j),
    fun k j => Cert.KernelIdeal.Arrays.w2arg m c (ix3 f k j) * Cert.ReferenceIdeal.RefValue.mask2 (ix2 k j),
    fun j => (m ((c : Thread nD τ).loc main_arg6) : S2x256.Idx → EReal) (ix2 f j),
    fun k q => Cert.KernelIdeal.Arrays.w3arg m c (ix3 f k (perm q)) * Cert.ReferenceIdeal.RefValue.mask3 (ix2 k (perm q)),
    fun q => Cert.KernelIdeal.Arrays.b3arg m c (ix2 f (perm q))⟩

open Cert.KernelIdeal in
/-- It is the reference's weight record of those arguments, regrouped. -/
theorem mid_eq (m : (ℓ : Loc Cert.KernelIdeal.nD Cert.KernelIdeal.τ Cert.KernelIdeal.sig) → Buf (Elt Ideal) ℓ)
    (c : Dev Cert.KernelIdeal.nD) (f : Fin 2) :
    mid m c f
      = (Cert.ReferenceIdeal.RefValue.refParams f (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8))).regroup := rfl

/-- Records built from equal fields are equal. -/
theorem mk_congr {W1 W1' : Fin 2 → Fin 256 → EReal} {b1 b1' : Fin 256 → EReal} {W2 W2' : Fin 256 → Fin 256 → EReal}
    {b2 b2' : Fin 256 → EReal} {W3 W3' : Fin 256 → Fin 4 → EReal} {b3 b3' : Fin 4 → EReal}
    (h1 : W1 = W1') (h2 : b1 = b1') (h3 : W2 = W2') (h4 : b2 = b2') (h5 : W3 = W3') (h6 : b3 = b3') :
    Params.mk W1 b1 W2 b2 W3 b3 = Params.mk W1' b1' W2' b2' W3' b3' := by
  cases h1; cases h2; cases h3; cases h4; cases h5; cases h6; rfl

/-! Each operand the kernel's program prepares, as a function of its coordinates, is the masked (and, for the last
    layer, regrouped) argument. -/

open Cert.KernelIdeal in
theorem field_W1 (m : (ℓ : Loc Cert.KernelIdeal.nD Cert.KernelIdeal.τ Cert.KernelIdeal.sig) → Buf (Elt Ideal) ℓ)
    (c : Dev Cert.KernelIdeal.nD) (f : Fin 2) :
    (fun k j => Cert.KernelIdeal.Arrays.w1op m c (ix3 f k j))
      = fun k j => Cert.KernelIdeal.Arrays.w1arg m c (ix3 f k j) * Cert.ReferenceIdeal.RefValue.mask1 (ix2 k j) := by
  funext k j
  rw [Cert.KernelIdeal.Arrays.w1op_apply, mask1_eq]

open Cert.KernelIdeal in
theorem field_b1 (m : (ℓ : Loc Cert.KernelIdeal.nD Cert.KernelIdeal.τ Cert.KernelIdeal.sig) → Buf (Elt Ideal) ℓ)
    (c : Dev Cert.KernelIdeal.nD) (f : Fin 2) :
    (fun j => Cert.KernelIdeal.Final.b1Arr m c (ix2 f j)) = fun j => (m ((c : Thread nD τ).loc main_arg4) : S2x256.Idx → EReal) (ix2 f j) :=
  funext fun j => congrFun (Cert.KernelIdeal.Gen.V_main_arg4 m c) (ix2 f j)

open Cert.KernelIdeal in
theorem field_W2 (m : (ℓ : Loc Cert.KernelIdeal.nD Cert.KernelIdeal.τ Cert.KernelIdeal.sig) → Buf (Elt Ideal) ℓ)
    (c : Dev Cert.KernelIdeal.nD) (f : Fin 2) :
    (fun k j => Cert.KernelIdeal.Arrays.w2op m c (ix3 f k j))
      = fun k j => Cert.KernelIdeal.Arrays.w2arg m c (ix3 f k j) * Cert.ReferenceIdeal.RefValue.mask2 (ix2 k j) := by
  funext k j
  rw [Cert.KernelIdeal.Arrays.w2op_apply]
  rfl

open Cert.KernelIdeal in
theorem field_b2 (m : (ℓ : Loc Cert.KernelIdeal.nD Cert.KernelIdeal.τ Cert.KernelIdeal.sig) → Buf (Elt Ideal) ℓ)
    (c : Dev Cert.KernelIdeal.nD) (f : Fin 2) :
    (fun j => Cert.KernelIdeal.Final.b2Arr m c (ix2 f j)) = fun j => (m ((c : Thread nD τ).loc main_arg6) : S2x256.Idx → EReal) (ix2 f j) :=
  funext fun j => congrFun (Cert.KernelIdeal.Gen.V_main_arg6 m c) (ix2 f j)

open Cert.KernelIdeal in
theorem field_W3 (m : (ℓ : Loc Cert.KernelIdeal.nD Cert.KernelIdeal.τ Cert.KernelIdeal.sig) → Buf (Elt Ideal) ℓ)
    (c : Dev Cert.KernelIdeal.nD) (f : Fin 2) :
    (fun k q => Cert.KernelIdeal.Arrays.w3op m c (ix3 f k q))
      = fun k q => Cert.KernelIdeal.Arrays.w3arg m c (ix3 f k (perm q)) * Cert.ReferenceIdeal.RefValue.mask3 (ix2 k (perm q)) := by
  funext k q
  rw [Cert.KernelIdeal.Arrays.w3op_apply, mask3_eq]

open Cert.KernelIdeal in
theorem field_b3 (m : (ℓ : Loc Cert.KernelIdeal.nD Cert.KernelIdeal.τ Cert.KernelIdeal.sig) → Buf (Elt Ideal) ℓ)
    (c : Dev Cert.KernelIdeal.nD) (f : Fin 2) :
    (fun q => Cert.KernelIdeal.Arrays.b3op m c (ix2 f q)) = fun q => Cert.KernelIdeal.Arrays.b3arg m c (ix2 f (perm q)) :=
  funext fun q => Cert.KernelIdeal.Arrays.b3op_apply m c f q

open Cert.KernelIdeal in
/-- So flow `f`'s weights as the kernel's region finds them are that record. -/
theorem opParams_mid (m : (ℓ : Loc Cert.KernelIdeal.nD Cert.KernelIdeal.τ Cert.KernelIdeal.sig) → Buf (Elt Ideal) ℓ)
    (c : Dev Cert.KernelIdeal.nD) (f : Fin 2) : Cert.KernelIdeal.Final.opParams m c f = mid m c f :=
  mk_congr (field_W1 m c f) (field_b1 m c f) (field_W2 m c f) (field_b2 m c f) (field_W3 m c f) (field_b3 m c f)

open Cert.KernelIdeal in
/-- Flow `f`'s weights as the kernel's region finds them are the reference's masked weights of the launch arguments,
    the last layer's outputs regrouped. -/
theorem opParams_eq (m : (ℓ : Loc Cert.KernelIdeal.nD Cert.KernelIdeal.τ Cert.KernelIdeal.sig) → Buf (Elt Ideal) ℓ)
    (c : Dev Cert.KernelIdeal.nD) (f : Fin 2) :
    Cert.KernelIdeal.Final.opParams m c f
      = (Cert.ReferenceIdeal.RefValue.refParams f (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8))).regroup :=
  (opParams_mid m c f).trans (mid_eq m c f)

open Cert.KernelIdeal in
/-- THE KERNEL'S RESULT ARRAY IS THE REFERENCE'S RESULT of the same launch arguments. -/
theorem G_eq_result (m : (ℓ : Loc Cert.KernelIdeal.nD Cert.KernelIdeal.τ Cert.KernelIdeal.sig) → Buf (Elt Ideal) ℓ)
    (c : Dev Cert.KernelIdeal.nD) :
    Cert.ReferenceIdeal.RefValue.result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8))
      = Cert.KernelIdeal.Final.G m c := by
  funext i
  obtain ⟨r, d, rfl⟩ : ∃ (r : Fin 524288) (d : Fin 2), i = ix2 r d := ⟨i 0, i 1, eq_ix2 i⟩
  rw [Cert.KernelIdeal.Final.G_apply]
  unfold Cert.KernelIdeal.Final.Grow
  rw [opParams_eq, opParams_eq, maf_regroup]
  have e0 : Cert.KernelIdeal.Final.zmArr m c = m ((c : Thread nD τ).loc main_arg0) := Cert.KernelIdeal.Gen.V_main_arg0 m c
  have e1 : Cert.KernelIdeal.Final.zlArr m c = m ((c : Thread nD τ).loc main_arg1) := Cert.KernelIdeal.Gen.V_main_arg1 m c
  have e2 : Cert.KernelIdeal.Final.epArr m c = m ((c : Thread nD τ).loc main_arg2) := Cert.KernelIdeal.Gen.V_main_arg2 m c
  rw [e0, e1, e2]
  exact congrFun (Cert.ReferenceIdeal.RefValue.result_row _ _ _ _ _ _ _ _ _ r) d

end Cert.Bridge

end
-- ==== Proof.lean ====
/-
  The kernel and the reference compute the same array: a sample x₀ = z_mean + exp(½ · z_log_var) · ε sent, row by row,
  through two masked autoregressive flows, each flow two passes x · exp(log-scale) + shift over a three-layer linear
  network with masked weights.

  The kernel's two frames are the generated ones. The reference is a straight line of host operations, so its frame is
  its run with the result dropped. The idealization rewrote nothing. For the value claim, a row of either program's
  result depends on the same row of the three sample arrays only: the kernel's result array is, row by row, the row map
  over the regrouped weights its program prepares (Proof/KernelFinal.lean: 256 blocks of 2048 rows tile the array), the
  reference's result is the row map over the masked weights (Proof/RefValue.lean), and the two row maps agree
  (Proof/Bridge.lean: regrouping the last layer's outputs and reading them grouped is reading them interleaved).
-/
import proofs.«127100_j22660247453989_1_alg».proof.Defs
import proofs.«127100_j22660247453989_1_alg».proof.Proof.Gen.Kernel
import proofs.«127100_j22660247453989_1_alg».proof.Proof.Gen.Kernel.Skeleton
import proofs.«127100_j22660247453989_1_alg».proof.Proof.Gen.Kernel.Launch
import proofs.«127100_j22660247453989_1_alg».proof.Proof.Gen.Kernel.Points
import proofs.«127100_j22660247453989_1_alg».proof.Proof.Gen.Kernel.Frame
import proofs.«127100_j22660247453989_1_alg».proof.Proof.Gen.KernelIdeal
import proofs.«127100_j22660247453989_1_alg».proof.Proof.Gen.KernelIdeal.Skeleton
import proofs.«127100_j22660247453989_1_alg».proof.Proof.Gen.KernelIdeal.Launch
import proofs.«127100_j22660247453989_1_alg».proof.Proof.Gen.KernelIdeal.Points
import proofs.«127100_j22660247453989_1_alg».proof.Proof.Gen.KernelIdeal.Frame
import proofs.«127100_j22660247453989_1_alg».proof.Proof.Gen.KernelIdeal.Value
import proofs.«127100_j22660247453989_1_alg».proof.Proof.Gen.ReferenceIdeal
import proofs.«127100_j22660247453989_1_alg».proof.Proof.Gen.Pre_finite_inputs
import proofs.«127100_j22660247453989_1_alg».proof.Proof.RefAfter
import proofs.«127100_j22660247453989_1_alg».proof.Proof.Bridge
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.RefAfter.run m ρ)

/-- The idealization rewrote no operation. -/
theorem preserves : Cert.preserves_Kernel_KernelIdeal := trivial

/-- From memories agreeing on the arguments both programs end with the same result array: the kernel's at `G` of its
    arguments, the reference's at `result` of its own, which are the kernel's, and `result` of those is `G`. -/
theorem algebraic : Cert.algebraic_KernelIdeal_ReferenceIdeal := by
  intro m ρ m' ρ' _ hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.RefAfter.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact Cert.Bridge.G_eq_result m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
